-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x256 : Shape := ⟨2, ![8192, 256]⟩
abbrev S8192 : Shape := ⟨1, ![8192]⟩
abbrev S_ : Shape := ⟨0, ![]⟩

class Facts : Prop where
  bcast_S_S8192x256 : S_.BroadcastsInDim S8192x256 (![] : Fin 0 → Fin S8192x256.rank)
  reducesTo_S8192x256_S_d0_1 : S8192x256.ReducesTo [0, 1] S_
  h_S_ : 0 < S_.numel

variable [Facts]

def fn {F : FTy → Type} [FloatOps F] (main_arg0 : FVec F S8192x256 .f32) (main_arg1 : IVec S8192 32) : IVec S_ 1 :=
  let main_v0 : FVec F S8192x256 .f32 := Host.absf main_arg0
  let main_cst : FVec F S_ .f32 := constant S_ .f32 0x7F800000#32
  let main_v1 : FVec F S8192x256 .f32 := broadcastInDim S8192x256 ![] bcast_S_S8192x256 main_cst
  let main_v2 : IVec S8192x256 1 := cmpf .olt main_v0 main_v1
  let main_c : IVec S_ 1 := constantI S_ 1 1#1
  let main_v3 : IVec S_ 1 := (fun x v => Host.reduce IntOp.andi x v reducesTo_S8192x256_S_d0_1 h_S_) main_v2 main_c
  main_v3
-- ==== Kernel.lean ====
abbrev S8192x256 : Shape := ⟨2, ![8192, 256]⟩
abbrev S8192 : Shape := ⟨1, ![8192]⟩
abbrev S_ : Shape := ⟨0, ![]⟩
abbrev S8192x1 : Shape := ⟨2, ![8192, 1]⟩
abbrev S1x8192 : Shape := ⟨2, ![1, 8192]⟩
abbrev S1x1 : Shape := ⟨2, ![1, 1]⟩
abbrev S1024x256 : Shape := ⟨2, ![1024, 256]⟩
abbrev S1024x1 : Shape := ⟨2, ![1024, 1]⟩
abbrev S1x1024 : Shape := ⟨2, ![1, 1024]⟩
abbrev S256x1024 : Shape := ⟨2, ![256, 1024]⟩
abbrev S1024x1024 : Shape := ⟨2, ![1024, 1024]⟩
abbrev S1024 : Shape := ⟨1, ![1024]⟩
abbrev S1 : Shape := ⟨1, ![1]⟩

abbrev nBuf : Space → Nat
  | .hbm => 17
  | .vmem => 17
  | .smem => 0
  | _ => 0

abbrev bufTy : (tb : Table) → Fin (tcTables nBuf tb) → BufTy
  | .hbm, ⟨0, _⟩ => ⟨S8192x256, .f32⟩
  | .hbm, ⟨1, _⟩ => ⟨S8192, .i32⟩
  | .hbm, ⟨2, _⟩ => ⟨S8192x256, .f32⟩
  | .hbm, ⟨3, _⟩ => ⟨S_, .f32⟩
  | .hbm, ⟨4, _⟩ => ⟨S8192, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S1x8192, .f32⟩
  | .hbm, ⟨9, _⟩ => ⟨S8192x1, .f32⟩
  | .hbm, ⟨10, _⟩ => ⟨S1x8192, .f32⟩
  | .hbm, ⟨11, _⟩ => ⟨S8192x1, .i32⟩
  | .hbm, ⟨12, _⟩ => ⟨S1x8192, .i32⟩
  | .hbm, ⟨13, _⟩ => ⟨S1x1, .f32⟩
  | .hbm, ⟨14, _⟩ => ⟨S_, .f32⟩
  | .hbm, ⟨15, _⟩ => ⟨S_, .f32⟩
  | .hbm, ⟨16, _⟩ => ⟨S_, .f32⟩
  | .local _ .vmem, ⟨0, _⟩ => ⟨S1024x256, .f32⟩
  | .local _ .vmem, ⟨1, _⟩ => ⟨S1024x256, .f32⟩
  | .local _ .vmem, ⟨2, _⟩ => ⟨S1024x256, .f32⟩
  | .local _ .vmem, ⟨3, _⟩ => ⟨S1024x256, .f32⟩
  | .local _ .vmem, ⟨4, _⟩ => ⟨S1024x1, .f32⟩
  | .local _ .vmem, ⟨5, _⟩ => ⟨S1024x1, .f32⟩
  | .local _ .vmem, ⟨6, _⟩ => ⟨S1x1024, .f32⟩
  | .local _ .vmem, ⟨7, _⟩ => ⟨S1x1024, .f32⟩
  | .local _ .vmem, ⟨8, _⟩ => ⟨S1024x1, .f32⟩
  | .local _ .vmem, ⟨9, _⟩ => ⟨S1024x1, .f32⟩
  | .local _ .vmem, ⟨10, _⟩ => ⟨S1x1024, .f32⟩
  | .local _ .vmem, ⟨11, _⟩ => ⟨S1x1024, .f32⟩
  | .local _ .vmem, ⟨12, _⟩ => ⟨S1024x1, .i32⟩
  | .local _ .vmem, ⟨13, _⟩ => ⟨S1024x1, .i32⟩
  | .local _ .vmem, ⟨14, _⟩ => ⟨S1x1024, .i32⟩
  | .local _ .vmem, ⟨15, _⟩ => ⟨S1x1024, .i32⟩
  | .local _ .vmem, ⟨16, _⟩ => ⟨S1x1, .f32⟩
  | _, _ => ⟨S8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst_1 : Ref sig .tc := ⟨.hbm, 15, rfl⟩
abbrev main_v11 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1024x1 .i32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x1024 .i32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 1 → Memref sig .tc .vmem S1x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

class Facts₀ : Prop where
  reducesTo_S8192x256_S8192_d1 : S8192x256.ReducesTo [1] S8192
  h_S_ : 0 < S_.numel
  shapeCasts_S8192_S8192x1 : S8192.ShapeCasts S8192x1
  shapeCasts_S8192_S1x8192 : S8192.ShapeCasts S1x8192
  inb_S1x1_S1x1_0_0 : ∀ a, (![0, 0] : Fin 2 → Nat) a + S1x1.size a ≤ S1x1.size a
  h_S1x1 : 0 < S1x1.numel
  inb_S1024x256_S1024x256_0_0 : ∀ a, (![0, 0] : Fin 2 → Nat) a + S1024x256.size a ≤ S1024x256.size a
  h_S1024x256 : 0 < S1024x256.numel
  bitsLt_bf16_f32 : FTy.bits .bf16 < FTy.bits .f32
  transposes_S1024x256_p1_0_S256x1024 : S1024x256.Transposes [1, 0] S256x1024
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1024x1_S1024x1024 : S1024x1.Broadcasts S1024x1024
  broadcasts_S1x1024_S1024x1024 : S1x1024.Broadcasts S1024x1024
  reduces_S1024x1024_S1024 : S1024x1024.Reduces [1] S1024
  shapeCasts_S1024_S1024x1 : S1024.ShapeCasts S1024x1
  reduces_S1024x1_S1 : S1024x1.Reduces [0] S1
  shapeCasts_S1_S1x1 : S1.ShapeCasts S1x1
  shapeCasts_S1x1_S1x1 : S1x1.ShapeCasts S1x1
  shapeCasts_S1x1_S_ : S1x1.ShapeCasts S_
  dot_S1024x256_S256x1024_S1024x1024_1_0_0_1_n_n_wf : DotDims.WF S1024x256 S256x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x256.size a ≤ S8192x256.size a
  hwx0_0 : ∀ i : grid0.Coords, EltTy.bits .f32 = 32 ∨ (Rect.block (s := S8192x256) S1024x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x256.size a ≤ S8192x256.size a
  hwx0_1 : ∀ i : grid0.Coords, EltTy.bits .f32 = 32 ∨ (Rect.block (s := S8192x256) S1024x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1.size a ≤ S8192x1.size a
  hwx0_2 : ∀ i : grid0.Coords, EltTy.bits .f32 = 32 ∨ (Rect.block (s := S8192x1) S1024x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x8192.size a
  hwx0_3 : ∀ i : grid0.Coords, EltTy.bits .f32 = 32 ∨ (Rect.block (s := S1x8192) S1x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x1.size a ≤ S8192x1.size a
  hwx0_4 : ∀ i : grid0.Coords, EltTy.bits .f32 = 32 ∨ (Rect.block (s := S8192x1) S1024x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1024.size a ≤ S1x8192.size a
  hwx0_5 : ∀ i : grid0.Coords, EltTy.bits .f32 = 32 ∨ (Rect.block (s := S1x8192) S1x1024.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1024x1.size a ≤ S8192x1.size a
  hwx0_6 : ∀ i : grid0.Coords, EltTy.bits .i32 = 32 ∨ (Rect.block (s := S8192x1) S1024x1.size (cc0_transform_6 i) (hinb0_6 i)).WholeWords (EltTy.packing .i32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x1024.size a ≤ S1x8192.size a
  hwx0_7 : ∀ i : grid0.Coords, EltTy.bits .i32 = 32 ∨ (Rect.block (s := S1x8192) S1x1024.size (cc0_transform_7 i) (hinb0_7 i)).WholeWords (EltTy.packing .i32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x1.size a ≤ S1x1.size a
  hwx0_8 : ∀ i : grid0.Coords, EltTy.bits .f32 = 32 ∨ (Rect.block (s := S1x1) S1x1.size (cc0_transform_8 i) (hinb0_8 i)).WholeWords (EltTy.packing .f32)

variable [Facts₀]

def dot_S1024x256_S256x1024_S1024x1024_1_0_0_1_n_n : DotDims S1024x256 S256x1024 S1024x1024 where
  lhsContracting := [1]
  rhsContracting := [0]
  lhsNonContracting := [0]
  rhsNonContracting := [1]
  lhsBatch := []
  rhsBatch := []
  wf := dot_S1024x256_S256x1024_S1024x1024_1_0_0_1_n_n_wf

abbrev win0_0 : Pipeline.Window sig grid0 :=
  Pipeline.Window.ofSpec (Memref.whole main_arg0) S1024x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S1024x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1024x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v4) S1x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v5) S1024x1.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v6) S1x1024.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v7) S1024x1.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_v8) S1x1024.size cc0_transform_7 reads0_7 false false 2 stage0_7 sem0_7
    hrank0 hreads0_7 hinb0_7 nbuf0_7 (Memref.isWhole_whole _) hwx0_7 hstage0_7

abbrev win0_8 : Pipeline.Window sig grid0 :=
  Pipeline.Window.ofSpec (Memref.whole main_v9) S1x1.size cc0_transform_8 reads0_8 true true 1 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S8192x256 : Shape := ⟨2, ![8192, 256]⟩
abbrev S8192 : Shape := ⟨1, ![8192]⟩
abbrev S_ : Shape := ⟨0, ![]⟩
abbrev S256x8192 : Shape := ⟨2, ![256, 8192]⟩
abbrev S8192x8192 : Shape := ⟨2, ![8192, 8192]⟩
abbrev S8192x1 : Shape := ⟨2, ![8192, 1]⟩
abbrev S1x8192 : Shape := ⟨2, ![1, 8192]⟩

abbrev nBuf : Space → Nat
  | .hbm => 46
  | .vmem => 0
  | .smem => 0
  | _ => 0

abbrev bufTy : (tb : Table) → Fin (tcTables nBuf tb) → BufTy
  | .hbm, ⟨0, _⟩ => ⟨S8192x256, .f32⟩
  | .hbm, ⟨1, _⟩ => ⟨S8192, .i32⟩
  | .hbm, ⟨2, _⟩ => ⟨S8192x256, .f32⟩
  | .hbm, ⟨3, _⟩ => ⟨S_, .f32⟩
  | .hbm, ⟨4, _⟩ => ⟨S8192, .f32⟩
  | .hbm, ⟨5, _⟩ => ⟨S_, .f32⟩
  | .hbm, ⟨6, _⟩ => ⟨S8192, .f32⟩
  | .hbm, ⟨7, _⟩ => ⟨S256x8192, .f32⟩
  | .hbm, ⟨8, _⟩ => ⟨S8192x8192, .f32⟩
  | .hbm, ⟨9, _⟩ => ⟨S8192x1, .f32⟩
  | .hbm, ⟨10, _⟩ => ⟨S1x8192, .f32⟩
  | .hbm, ⟨11, _⟩ => ⟨S8192x8192, .f32⟩
  | .hbm, ⟨12, _⟩ => ⟨S8192x8192, .f32⟩
  | .hbm, ⟨13, _⟩ => ⟨S8192x8192, .f32⟩
  | .hbm, ⟨14, _⟩ => ⟨S_, .f32⟩
  | .hbm, ⟨15, _⟩ => ⟨S8192x8192, .f32⟩
  | .hbm, ⟨16, _⟩ => ⟨S8192x8192, .f32⟩
  | .hbm, ⟨17, _⟩ => ⟨S8192x8192, .f32⟩
  | .hbm, ⟨18, _⟩ => ⟨S8192x1, .f32⟩
  | .hbm, ⟨19, _⟩ => ⟨S1x8192, .f32⟩
  | .hbm, ⟨20, _⟩ => ⟨S8192x8192, .f32⟩
  | .hbm, ⟨21, _⟩ => ⟨S8192x8192, .f32⟩
  | .hbm, ⟨22, _⟩ => ⟨S8192x8192, .f32⟩
  | .hbm, ⟨23, _⟩ => ⟨S_, .f32⟩
  | .hbm, ⟨24, _⟩ => ⟨S8192x8192, .f32⟩
  | .hbm, ⟨25, _⟩ => ⟨S8192x8192, .f32⟩
  | .hbm, ⟨26, _⟩ => ⟨S8192x8192, .f32⟩
  | .hbm, ⟨27, _⟩ => ⟨S_, .f32⟩
  | .hbm, ⟨28, _⟩ => ⟨S8192x8192, .f32⟩
  | .hbm, ⟨29, _⟩ => ⟨S8192x8192, .f32⟩
  | .hbm, ⟨30, _⟩ => ⟨S8192x1, .i32⟩
  | .hbm, ⟨31, _⟩ => ⟨S1x8192, .i32⟩
  | .hbm, ⟨32, _⟩ => ⟨S8192x8192, .i32⟩
  | .hbm, ⟨33, _⟩ => ⟨S8192x8192, .i32⟩
  | .hbm, ⟨34, _⟩ => ⟨S8192x8192, .i1⟩
  | .hbm, ⟨35, _⟩ => ⟨S_, .f32⟩
  | .hbm, ⟨36, _⟩ => ⟨S8192x8192, .f32⟩
  | .hbm, ⟨37, _⟩ => ⟨S8192x8192, .f32⟩
  | .hbm, ⟨38, _⟩ => ⟨S_, .f32⟩
  | .hbm, ⟨39, _⟩ => ⟨S8192x8192, .f32⟩
  | .hbm, ⟨40, _⟩ => ⟨S8192x8192, .f32⟩
  | .hbm, ⟨41, _⟩ => ⟨S8192x8192, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S_, .f32⟩
  | _, _ => ⟨S8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_cst_2 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_cst_3 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_cst_4 : Ref sig .tc := ⟨.hbm, 35, rfl⟩
abbrev main_v28 : Ref sig .tc := ⟨.hbm, 36, rfl⟩
abbrev main_v29 : Ref sig .tc := ⟨.hbm, 37, rfl⟩
abbrev main_cst_5 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_cst_6 : Ref sig .tc := ⟨.hbm, 42, rfl⟩
abbrev main_v33 : Ref sig .tc := ⟨.hbm, 43, rfl⟩
abbrev main_cst_7 : Ref sig .tc := ⟨.hbm, 44, rfl⟩
abbrev main_v34 : Ref sig .tc := ⟨.hbm, 45, rfl⟩

abbrev nD : Nat := 1
abbrev τ : Topo := Topo.v7x

variable {F : FTy → Type} [FloatOps F]

class Facts₀ : Prop where
  reducesTo_S8192x256_S8192_d1 : S8192x256.ReducesTo [1] S8192
  h_S_ : 0 < S_.numel
  transposes_S8192x256_S256x8192_1_0 : S8192x256.Transposes [1, 0] S256x8192
  bcast_S8192_S8192x1_0 : S8192.BroadcastsInDim S8192x1 (![0] : Fin 1 → Fin S8192x1.rank)
  bcast_S8192_S1x8192_1 : S8192.BroadcastsInDim S1x8192 (![1] : Fin 1 → Fin S1x8192.rank)
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  bcast_S_S8192x8192 : S_.BroadcastsInDim S8192x8192 (![] : Fin 0 → Fin S8192x8192.rank)
  reducesTo_S8192x8192_S_d0_1 : S8192x8192.ReducesTo [0, 1] S_
  dot_S8192x256_S256x8192_S8192x8192_1_0_0_1_n_n_wf : DotDims.WF S8192x256 S256x8192 S8192x8192 [1] [0] [0] [1] [] []

variable [Facts₀]

def dot_S8192x256_S256x8192_S8192x8192_1_0_0_1_n_n : DotDims S8192x256 S256x8192 S8192x8192 where
  lhsContracting := [1]
  rhsContracting := [0]
  lhsNonContracting := [0]
  rhsNonContracting := [1]
  lhsBatch := []
  rhsBatch := []
  wf := dot_S8192x256_S256x8192_S8192x8192_1_0_0_1_n_n_wf

class Facts : Prop extends Facts₀ where

variable [Facts]
-- ==== Proof.FrameKernel.Base.lean ====
/-
  What the body's runs and the proof data of the one pipelined call share: the contents of the core's arrays when the
  region is entered (the eleven host operations before it applied to the launch memory), each window's block at a grid
  point read off its array, the fact that an input window's staging buffer holds that block whenever the body runs
  (fetched at the point or not: an unfetched window's block index has not moved), the condition of the body's one
  branch (both grid coordinates zero: the first point only), and names for the staging buffers the pipeline passes.
-/
import proofs.«149557_j76081050681843_1_alg».proof.Proof.Gen.Kernel.Launch
import proofs.«149557_j76081050681843_1_alg».proof.Proof.Gen.Kernel.Skeleton
import proofs.«149557_j76081050681843_1_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays at the region's entry -/

/-- Core `c`'s buffers at launch, as a valuation; -/
abbrev V₀ (c : Dev nD) : Valuation τ sig (Elt F) := fun b => m (c, b)
/-- and when the region is entered: the host operations before it have run. -/
abbrev V (c : Dev nD) (b : Ref sig .tc) : Buf (Elt F) ((c : Thread nD τ).loc b) := StableHlo.after hostOps0 (V₀ m c) b

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, for any proof data whose array is the
    region-entry contents and whose body leaves the block in place: the window is uncut and never idle, and where it is
    not fetched its block index is the previous point's. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds its block at every point, for any proof data whose array is the
    region-entry contents and whose body leaves the block in place: the window is uncut and never idle, and where it is
    not fetched its block index is the previous point's. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current staging buffer holds its block at every point, for any proof data whose array is the
    region-entry contents and whose body leaves the block in place: the window is uncut and never idle, and where it is
    not fetched its block index is the previous point's. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's current staging buffer holds its block at every point, for any proof data whose array is the
    region-entry contents and whose body leaves the block in place: the window is uncut and never idle, and where it is
    not fetched its block index is the previous point's. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- Input window 4's current staging buffer holds its block at every point, for any proof data whose array is the
    region-entry contents and whose body leaves the block in place: the window is uncut and never idle, and where it is
    not fetched its block index is the previous point's. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-- Input window 5's current staging buffer holds its block at every point, for any proof data whose array is the
    region-entry contents and whose body leaves the block in place: the window is uncut and never idle, and where it is
    not fetched its block index is the previous point's. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-- Input window 6's current staging buffer holds its block at every point, for any proof data whose array is the
    region-entry contents and whose body leaves the block in place: the window is uncut and never idle, and where it is
    not fetched its block index is the previous point's. -/
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

/-- Input window 7's current staging buffer holds its block at every point, for any proof data whose array is the
    region-entry contents and whose body leaves the block in place: the window is uncut and never idle, and where it is
    not fetched its block index is the previous point's. -/
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)

/-! ## The body's branch -/

/-- The condition of the body's one branch, from the grid coordinates: both are zero. -/
abbrev cond0_0 (i : grid0.Coords) : Prop :=
  (Scalar.cmpi .ne (Scalar.extui (Scalar.andi (Scalar.cmpi .eq (BitVec.ofNat 32 (i 0).val) 0#32) (Scalar.cmpi .eq (BitVec.ofNat 32 (i 1).val) 0#32))) 0#32) = 1#1
/-- It holds at the first point only — decided over the grid. -/
theorem hcond0_0 : ∀ t : Fin cfg0.N, cond0_0 (grid0.coords t) ↔ t.val % 64 = 0 :=
  (by decide +kernel : ∀ t : Fin grid0.N, cond0_0 (grid0.coords t) ↔ t.val % 64 = 0)

/-! ## The staging buffers at a point -/

/-- One staging buffer of the output window, through which its contents are stated. -/
abbrev VO0_8 : View sig .tc .vmem S1x1 .f32 := (Memref.whole cc0_stg8_0 : Memref sig .tc .vmem S1x1 .f32).view
abbrev ms0_0 (t : Fin cfg0.N) : Memref sig .tc .vmem S1024x256 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x256 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x1 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1024 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1024x1 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x1024 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1024x1 .i32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x1024 .i32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x1 .f32 := win0_8.stage (cfg0.slots t 8)
abbrev hs0_8 (t : Fin cfg0.N) : (ms0_8 t).IsWhole := hstage0_8 ((cfg0.slots t 8).cast nbuf0_8)

end Cert.Kernel.Hand

end
-- ==== Proof.FrameKernel.RunA.lean ====
/-
  The body of the pipelined call run once, at a grid point where its branch is taken (the first point): the scalar
  accumulator is reset to zero, then the tile's sum is added to it. The run holds every input's staging buffer at its
  contents throughout and ends with the output's staging buffer written by the stores it lists, last first.
-/
import proofs.«149557_j76081050681843_1_alg».proof.Proof.FrameKernel.Base

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The stores the body leaves in the output's staging buffer in this case, as pieces (last first), with the proof that on
    whole staging buffers — the inputs' at their contents, the output's at anything — the body runs to the
    continuation holding the inputs' as they were and the output's with those pieces written. -/
noncomputable def kernelRun0_A (c : Dev nD) (i : grid0.Coords) (arg2 : Memref sig .tc .vmem S1024x256 .f32) (harg2 : arg2.IsWhole) (arg3 : Memref sig .tc .vmem S1024x256 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1 .f32) (harg6 : arg6.IsWhole) (arg7 : Memref sig .tc .vmem S1x1024 .f32) (harg7 : arg7.IsWhole) (arg8 : Memref sig .tc .vmem S1024x1 .i32) (harg8 : arg8.IsWhole) (arg9 : Memref sig .tc .vmem S1x1024 .i32) (harg9 : arg9.IsWhole) (arg10 : Memref sig .tc .vmem S1x1 .f32) (harg10 : arg10.IsWhole) (hc0 : cond0_0 i)
    (x0 : Vec F S1024x256 .f32) (x1 : Vec F S1024x256 .f32) (x2 : Vec F S1024x1 .f32) (x3 : Vec F S1x1024 .f32) (x4 : Vec F S1024x1 .f32) (x5 : Vec F S1x1024 .f32) (x6 : Vec F S1024x1 .i32) (x7 : Vec F S1x1024 .i32) :
    { L8 : List (View.Piece (Elt F) S1x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ f, arg10.view.loc (c : Thread nD τ) ↦[arg10.view.set]{fullShare} arg10.view.writes (Elt F) f L8)) -∗ K ⟨⟩))
          ⊢ wp frame (wpE (defs₀ (F := F)) Variants.none c none) E (cc0__contrastive_kernel i arg2 harg2 arg3 harg3 arg4 harg4 arg5 harg5 arg6 harg6 arg7 harg7 arg8 harg8 arg9 harg9 arg10 harg10) K } := by
  refine ⟨?_, fun E K => ?run⟩
  case run =>
    simp only [cc0__contrastive_kernel_eq_skeleton]; unfold cc0__contrastive_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    iexists _; iexact H8

end Cert.Kernel.Hand

end
-- ==== Proof.FrameKernel.RunB.lean ====
/-
  The body of the pipelined call run once, at a grid point where its branch is not taken (every later point): the
  tile's sum is added to the scalar accumulator the point before left. The run holds every input's staging buffer at its
  contents throughout and ends with the output's staging buffer written by the stores it lists, last first.
-/
import proofs.«149557_j76081050681843_1_alg».proof.Proof.FrameKernel.RunA

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The stores the body leaves in the output's staging buffer in this case, as pieces (last first), with the proof that on
    whole staging buffers — the inputs' at their contents, the output's at its running contents — the body runs to the
    continuation holding the inputs' as they were and the output's with those pieces written. -/
noncomputable def kernelRun0_B (c : Dev nD) (i : grid0.Coords) (arg2 : Memref sig .tc .vmem S1024x256 .f32) (harg2 : arg2.IsWhole) (arg3 : Memref sig .tc .vmem S1024x256 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1 .f32) (harg6 : arg6.IsWhole) (arg7 : Memref sig .tc .vmem S1x1024 .f32) (harg7 : arg7.IsWhole) (arg8 : Memref sig .tc .vmem S1024x1 .i32) (harg8 : arg8.IsWhole) (arg9 : Memref sig .tc .vmem S1x1024 .i32) (harg9 : arg9.IsWhole) (arg10 : Memref sig .tc .vmem S1x1 .f32) (harg10 : arg10.IsWhole) (hc0 : ¬cond0_0 i)
    (x0 : Vec F S1024x256 .f32) (x1 : Vec F S1024x256 .f32) (x2 : Vec F S1024x1 .f32) (x3 : Vec F S1x1024 .f32) (x4 : Vec F S1024x1 .f32) (x5 : Vec F S1x1024 .f32) (x6 : Vec F S1024x1 .i32) (x7 : Vec F S1x1024 .i32) (xo8 : Vec F S1x1 .f32) :
    { L8 : List (View.Piece (Elt F) S1x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare xo8
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ f, arg10.view.loc (c : Thread nD τ) ↦[arg10.view.set]{fullShare} arg10.view.writes (Elt F) f L8)) -∗ K ⟨⟩))
          ⊢ wp frame (wpE (defs₀ (F := F)) Variants.none c none) E (cc0__contrastive_kernel i arg2 harg2 arg3 harg3 arg4 harg4 arg5 harg5 arg6 harg6 arg7 harg7 arg8 harg8 arg9 harg9 arg10 harg10) K } := by
  refine ⟨?_, fun E K => ?run⟩
  case run =>
    simp only [cc0__contrastive_kernel_eq_skeleton]; unfold cc0__contrastive_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    iexists _; iexact H8

end Cert.Kernel.Hand

end
-- ==== Proof.FrameKernel.Body.lean ====
/-
  The proof data of the one pipelined call and its body obligation. After the body at a grid point every input window's
  staging buffer still holds its block, and the output window's single cell holds the running scalar: at the first point
  what the branch-taken run leaves over a fresh buffer, at every later point what the other run leaves over the contents
  the point before left (the output is written back only after the last point, so nothing touches the buffer in between).
-/
import proofs.«149557_j76081050681843_1_alg».proof.Proof.FrameKernel.RunB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The first point's stores tile the output's one-cell block, so they cover it. -/
theorem cover0_A_8 (c : Dev nD) (i : grid0.Coords) (arg2 : Memref sig .tc .vmem S1024x256 .f32) (harg2 : arg2.IsWhole) (arg3 : Memref sig .tc .vmem S1024x256 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1 .f32) (harg6 : arg6.IsWhole) (arg7 : Memref sig .tc .vmem S1x1024 .f32) (harg7 : arg7.IsWhole) (arg8 : Memref sig .tc .vmem S1024x1 .i32) (harg8 : arg8.IsWhole) (arg9 : Memref sig .tc .vmem S1x1024 .i32) (harg9 : arg9.IsWhole) (arg10 : Memref sig .tc .vmem S1x1 .f32) (harg10 : arg10.IsWhole) (hc0 : cond0_0 i)
    (x0 : Vec F S1024x256 .f32) (x1 : Vec F S1024x256 .f32) (x2 : Vec F S1024x1 .f32) (x3 : Vec F S1x1024 .f32) (x4 : Vec F S1024x1 .f32) (x5 : Vec F S1x1024 .f32) (x6 : Vec F S1024x1 .i32) (x7 : Vec F S1x1024 .i32) (y : S1x1.Idx) :
    ∃ pc ∈ (kernelRun0_A c i arg2 harg2 arg3 harg3 arg4 harg4 arg5 harg5 arg6 harg6 arg7 harg7 arg8 harg8 arg9 harg9 arg10 harg10 hc0 x0 x1 x2 x3 x4 x5 x6 x7).1, y ∈ pc.1.set :=
  View.cover_of_tiledL (kernelRun0_A c i arg2 harg2 arg3 harg3 arg4 harg4 arg5 harg5 arg6 harg6 arg7 harg7 arg8 harg8 arg9 harg9 arg10 harg10 hc0 x0 x1 x2 x3 x4 x5 x6 x7).1 S1x1.size (by sl_kernel_rfl) y

/-- What the first point leaves in the output's staging buffer: its stores read back over anything. -/
def out0_A_8 (c : Dev nD) (i : grid0.Coords) (arg2 : Memref sig .tc .vmem S1024x256 .f32) (harg2 : arg2.IsWhole) (arg3 : Memref sig .tc .vmem S1024x256 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1 .f32) (harg6 : arg6.IsWhole) (arg7 : Memref sig .tc .vmem S1x1024 .f32) (harg7 : arg7.IsWhole) (arg8 : Memref sig .tc .vmem S1024x1 .i32) (harg8 : arg8.IsWhole) (arg9 : Memref sig .tc .vmem S1x1024 .i32) (harg9 : arg9.IsWhole) (arg10 : Memref sig .tc .vmem S1x1 .f32) (harg10 : arg10.IsWhole) (hc0 : cond0_0 i)
    (x0 : Vec F S1024x256 .f32) (x1 : Vec F S1024x256 .f32) (x2 : Vec F S1024x1 .f32) (x3 : Vec F S1x1024 .f32) (x4 : Vec F S1024x1 .f32) (x5 : Vec F S1x1024 .f32) (x6 : Vec F S1024x1 .i32) (x7 : Vec F S1x1024 .i32) : Vec F S1x1 .f32 :=
  VO0_8.read (Elt F) (VO0_8.writes (Elt F) VO0_8.junk (kernelRun0_A c i arg2 harg2 arg3 harg3 arg4 harg4 arg5 harg5 arg6 harg6 arg7 harg7 arg8 harg8 arg9 harg9 arg10 harg10 hc0 x0 x1 x2 x3 x4 x5 x6 x7).1)

/-- A later point's store tiles the output's one-cell block, so it covers it. -/
theorem cover0_B_8 (c : Dev nD) (i : grid0.Coords) (arg2 : Memref sig .tc .vmem S1024x256 .f32) (harg2 : arg2.IsWhole) (arg3 : Memref sig .tc .vmem S1024x256 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1 .f32) (harg6 : arg6.IsWhole) (arg7 : Memref sig .tc .vmem S1x1024 .f32) (harg7 : arg7.IsWhole) (arg8 : Memref sig .tc .vmem S1024x1 .i32) (harg8 : arg8.IsWhole) (arg9 : Memref sig .tc .vmem S1x1024 .i32) (harg9 : arg9.IsWhole) (arg10 : Memref sig .tc .vmem S1x1 .f32) (harg10 : arg10.IsWhole) (hc0 : ¬cond0_0 i)
    (x0 : Vec F S1024x256 .f32) (x1 : Vec F S1024x256 .f32) (x2 : Vec F S1024x1 .f32) (x3 : Vec F S1x1024 .f32) (x4 : Vec F S1024x1 .f32) (x5 : Vec F S1x1024 .f32) (x6 : Vec F S1024x1 .i32) (x7 : Vec F S1x1024 .i32) (xo8 : Vec F S1x1 .f32) (y : S1x1.Idx) :
    ∃ pc ∈ (kernelRun0_B c i arg2 harg2 arg3 harg3 arg4 harg4 arg5 harg5 arg6 harg6 arg7 harg7 arg8 harg8 arg9 harg9 arg10 harg10 hc0 x0 x1 x2 x3 x4 x5 x6 x7 xo8).1, y ∈ pc.1.set :=
  View.cover_of_tiledL (kernelRun0_B c i arg2 harg2 arg3 harg3 arg4 harg4 arg5 harg5 arg6 harg6 arg7 harg7 arg8 harg8 arg9 harg9 arg10 harg10 hc0 x0 x1 x2 x3 x4 x5 x6 x7 xo8).1 S1x1.size (by sl_kernel_rfl) y

/-- What a later point leaves in the output's staging buffer, over the running contents `xo8`. -/
def out0_B_8 (c : Dev nD) (i : grid0.Coords) (arg2 : Memref sig .tc .vmem S1024x256 .f32) (harg2 : arg2.IsWhole) (arg3 : Memref sig .tc .vmem S1024x256 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1 .f32) (harg6 : arg6.IsWhole) (arg7 : Memref sig .tc .vmem S1x1024 .f32) (harg7 : arg7.IsWhole) (arg8 : Memref sig .tc .vmem S1024x1 .i32) (harg8 : arg8.IsWhole) (arg9 : Memref sig .tc .vmem S1x1024 .i32) (harg9 : arg9.IsWhole) (arg10 : Memref sig .tc .vmem S1x1 .f32) (harg10 : arg10.IsWhole) (hc0 : ¬cond0_0 i)
    (x0 : Vec F S1024x256 .f32) (x1 : Vec F S1024x256 .f32) (x2 : Vec F S1024x1 .f32) (x3 : Vec F S1x1024 .f32) (x4 : Vec F S1024x1 .f32) (x5 : Vec F S1x1024 .f32) (x6 : Vec F S1024x1 .i32) (x7 : Vec F S1x1024 .i32) (xo8 : Vec F S1x1 .f32) : Vec F S1x1 .f32 :=
  VO0_8.read (Elt F) (VO0_8.writes (Elt F) VO0_8.junk (kernelRun0_B c i arg2 harg2 arg3 harg3 arg4 harg4 arg5 harg5 arg6 harg6 arg7 harg7 arg8 harg8 arg9 harg9 arg10 harg10 hc0 x0 x1 x2 x3 x4 x5 x6 x7 xo8).1)

/-! ## The running scalar, point by point -/

/-- What the output's staging buffer holds after the body at position `n`: the first point's run over the point's input
    blocks, then each later point's run over its input blocks and what the point before left. -/
def outsAt0 (c : Dev nD) : (n : ℕ) → n < cfg0.N → Vec F S1x1 .f32
  | 0, hn => out0_A_8 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩)
  | n + 1, hn =>
    if h0 : (n + 1) % 64 = 0 then
      out0_A_8 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩)
    else
      out0_B_8 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (outsAt0 c n (Nat.lt_of_succ_lt hn))

/-- At the first point. -/
theorem outsAt0_A (c : Dev nD) (t : Fin cfg0.N) (h0 : t.val % 64 = 0) :
    outsAt0 m c t.val t.isLt = out0_A_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) ((hcond0_0 t).mpr h0) (iblk m c 0 t) (iblk m c 1 t) (iblk m c 2 t) (iblk m c 3 t) (iblk m c 4 t) (iblk m c 5 t) (iblk m c 6 t) (iblk m c 7 t) := by
  obtain ⟨n, hn⟩ := t
  cases n with
  | zero => exact rfl
  | succ n => exact (dif_pos h0).trans rfl

/-- At a later point: over what the point before left. -/
theorem outsAt0_B (c : Dev nD) (t : Fin cfg0.N) (h0 : ¬t.val % 64 = 0) :
    outsAt0 m c t.val t.isLt = out0_B_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (fun h => h0 ((hcond0_0 t).mp h)) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-! ## The proof data -/

/-- The proof data on core `c`: the arrays as the region finds them; after the body each input's buffer at its block and
    the output's at the running scalar; the invariant the scoped buffers no window stages; nothing owed. The two windows on
    the first argument's array hold one half of it each; every other array is held whole. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => (outsAt0 m c t.val t.isLt)
  Φ _ := Pipeline.scopedRest (Ix := Unit) (Name := ℕ) (U := UR sig nD τ) (Lvl := ℕ) (Val := Elt F) spec0 c
  q w := match w with
    | ⟨0, _⟩ => fullShare.left
    | ⟨1, _⟩ => fullShare.right
    | ⟨2, _⟩ => fullShare
    | ⟨3, _⟩ => fullShare
    | ⟨4, _⟩ => fullShare
    | ⟨5, _⟩ => fullShare
    | ⟨6, _⟩ => fullShare
    | ⟨7, _⟩ => fullShare
    | ⟨8, _⟩ => fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = (outsAt0 m c t.val t.isLt) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d

/-- At a later point the output's staging buffer holds what the body left at the point before: the buffer is written back
    only after the last point, and the window is live and uncut. -/
theorem before0_8_B (c : Dev nD) (t : Fin cfg0.N) (h0 : ¬t.val % 64 = 0) (d) :
    (dats m 0 c).before 8 t d = (outsAt0 m c (t.val - 1) (Nat.lt_of_le_of_lt (Nat.sub_le _ _) t.isLt)) := by
  have hN : t.val < 64 := lt_of_lt_of_eq t.isLt (show cfg0.N = 64 from N_0)
  rw [Dat.before_out_kept _ 8 rfl t (by omega) (Bool.eq_false_iff.mpr fun h => by have := (flush0_8 _).mp h; dsimp only at this; omega)
    (fun _ => rfl) (fun _ _ => rfl)]
  dsimp only [dats]

/-! ## The body obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t))

set_option maxHeartbeats 1600000 in
/-- The body at any point: the inputs' buffers hold their blocks; at the first point the branch-taken run applies over a
    fresh output buffer, at a later point the other run over what the point before left; the invariant passes through
    unread and the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8]
  have hN : t.val < 64 := lt_of_lt_of_eq t.isLt (show cfg0.N = 64 from N_0)
  by_cases h0 : t.val % 64 = 0
  · rw [outsAt0_A m c t h0]
    unfold out0_A_8
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply ((kernelRun0_A c (grid0.coords t) _ _ _ _ _ _ _ _ _ _ _ _ _ _ _ _ _ _ ((hcond0_0 t).mpr h0) (iblk m c 0 t) (iblk m c 1 t) (iblk m c 2 t) (iblk m c 3 t) (iblk m c 4 t) (iblk m c 5 t) (iblk m c 6 t) (iblk m c 7 t)).2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    iintro ⟨H0, H1, H2, H3, H4, H5, H6, H7, ⟨%e8, H8⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    unfold owns; iexists _; isplitr
    swap; · iexact H8
    ipureintro; exact View.read_writes_of_cover _ _ _ _ _ (cover0_A_8 c _ _ _ _ _ _ _ _ _ _ _ _ _ _ _ _ _ _ _ _ _ _ _ _ _ _ _ _)
  · rw [outsAt0_B m c t h0]
    simp only [before0_8_B m c t h0]
    unfold out0_B_8
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply ((kernelRun0_B c (grid0.coords t) _ _ _ _ _ _ _ _ _ _ _ _ _ _ _ _ _ _ (fun h => h0 ((hcond0_0 t).mp h)) (iblk m c 0 t) (iblk m c 1 t) (iblk m c 2 t) (iblk m c 3 t) (iblk m c 4 t) (iblk m c 5 t) (iblk m c 6 t) (iblk m c 7 t) _).2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iintro ⟨H0, H1, H2, H3, H4, H5, H6, H7, ⟨%e8, H8⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    unfold owns; iexists _; isplitr
    swap; · iexact H8
    ipureintro; exact View.read_writes_of_cover _ _ _ _ _ (cover0_B_8 c _ _ _ _ _ _ _ _ _ _ _ _ _ _ _ _ _ _ _ _ _ _ _ _ _ _ _ _ _)

/-- The library's body obligation, at every point. -/
theorem body_obligation (c : Dev nD) : BodyObligation (dats (F := F) m 0 c) (defs₀ (F := F)) Variants.none () Set.univ := fun t => by
  rw [bigSep_W0, bigSep_W0]
  exact sound_body m c t

end Cert.Kernel.Hand

end
-- ==== Proof.FrameKernel.Run.lean ====
/-
  The run of the whole program: eleven host operations, the pipelined call, three host operations. Between two of these
  the core holds every unscoped buffer whole at known contents. At the call's entry the buffers behind the windows' arrays
  are dealt to the nine windows — the first argument's array, which two windows read, split into two halves of its share,
  every other array whole — and at its exit the halves are joined again, the arrays the call only reads holding what they
  held and the output's array the last running scalar. Read at the end, every unscoped buffer holds the last three host
  operations' result of that.
-/
import proofs.«149557_j76081050681843_1_alg».proof.Proof.FrameKernel.Body
import Idealize.ShloMosaic.Lib.Pipeline.Regions
import Idealize.ShloMosaic.Lib.Pipeline.Frame

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev 𝒱₀ : Variants := Variants.none
/-- No core owes another anything: no level is assigned. -/
abbrev L : GSem nD τ sig → Finset Unit := fun _ => ∅
abbrev lv : GSem nD τ sig → Unit → ℕ := fun _ _ => 0
/-- The pipeline prefetches no table. -/
abbrev adm : (p : Fin 1) → (pcfgs (F := F) p).Adm := fun p => (cfgs p).toPCfg_adm
abbrev EP : Emb (UR sig nD τ) (MT nD τ sig Unit (Elt F) ℕ (UR sig nD τ) ℕ) := emb₁

/-- What rides beside the buffers through the host operations: that the core owes nothing. -/
abbrev R (c : Dev nD) : sProp 𝕄 := iprop(∃ W, owes (c : Thread nD τ) (0 : CellTallies nD τ sig Unit) W)

/-! ## The windows' arrays and their shares -/

/-- The pipeline's arrays, window by window, each a whole buffer at its share. -/
theorem arrays_shares (c : Dev nD) (Ff : (w : Fin cfg0.W) → Buf (Elt F) ((cfg0.win w).arr.view.loc (c : Thread nD τ))) :
    (dats m 0 c).arrays Ff = bigSep Finset.univ fun w => (((c : Thread nD τ).loc (Pipeline.arrRef spec0 w)) ↦{(dats m 0 c).share w} Ff w : sProp 𝕄) := by
  unfold Dat.arrays
  exact bigSep_congr fun w _ => by rw [(arr_whole0 w).set_eq_univ]

/-- The eight buffers behind the nine windows' arrays, one by one. -/
theorem arrBufs_list (c : Dev nD) (Vf : (b : Ref sig .tc) → Buf (Elt F) ((c : Thread nD τ).loc b)) :
    (Pipeline.arrBufs (Ix := Unit) (Name := ℕ) (U := UR sig nD τ) (Lvl := ℕ) spec0 c Vf : sProp 𝕄)
      = iprop((((c : Thread nD τ).loc main_arg0) ↦{fullShare} Vf main_arg0) ∗ (((c : Thread nD τ).loc main_v3) ↦{fullShare} Vf main_v3) ∗ (((c : Thread nD τ).loc main_v4) ↦{fullShare} Vf main_v4) ∗ (((c : Thread nD τ).loc main_v5) ↦{fullShare} Vf main_v5) ∗ (((c : Thread nD τ).loc main_v6) ↦{fullShare} Vf main_v6) ∗ (((c : Thread nD τ).loc main_v7) ↦{fullShare} Vf main_v7) ∗ (((c : Thread nD τ).loc main_v8) ↦{fullShare} Vf main_v8) ∗ (((c : Thread nD τ).loc main_v9) ↦{fullShare} Vf main_v9)) := by
  unfold Pipeline.arrBufs
  exact bigSep_eq_bigSepL_of_eq [main_arg0, main_v3, main_v4, main_v5, main_v6, main_v7, main_v8, main_v9] (by decide) (by decide) _

/-- The eight buffers behind the nine windows' arrays, each whole at contents `Vf`, are the windows' arrays at those
    contents: the first argument's array is split between the two windows that read it. -/
theorem arrays_of_arrBufs (c : Dev nD) (Vf : (b : Ref sig .tc) → Buf (Elt F) ((c : Thread nD τ).loc b))
    (Ff : (w : Fin cfg0.W) → Buf (Elt F) ((cfg0.win w).arr.view.loc (c : Thread nD τ))) (hF : ∀ w, Ff w = Vf (Pipeline.arrRef spec0 w)) :
    (Pipeline.arrBufs (Ix := Unit) (Name := ℕ) (U := UR sig nD τ) (Lvl := ℕ) spec0 c Vf : sProp 𝕄) ⊢ (dats m 0 c).arrays Ff := by
  rw [arrays_shares m c Ff, bigSep_W0, arrBufs_list]
  simp only [hF]
  iintro ⟨H0, H3, H4, H5, H6, H7, H8, H9⟩
  ihave Hs := (pointsTo_share (PosShare.mem_left_op_right fullShare)).1 $$ H0
  icases Hs with ⟨Hl, Hr⟩
  isplitl [Hl]; · iexact Hl
  isplitl [Hr]; · iexact Hr
  isplitl [H3]; · iexact H3
  isplitl [H4]; · iexact H4
  isplitl [H5]; · iexact H5
  isplitl [H6]; · iexact H6
  isplitl [H7]; · iexact H7
  isplitl [H8]; · iexact H8
  iexact H9

/-- And back: the windows' arrays at contents read off `Vf` are the eight buffers whole at `Vf`, the two halves of the
    first argument's array joined. -/
theorem arrBufs_of_arrays (c : Dev nD) (Vf : (b : Ref sig .tc) → Buf (Elt F) ((c : Thread nD τ).loc b))
    (Ff : (w : Fin cfg0.W) → Buf (Elt F) ((cfg0.win w).arr.view.loc (c : Thread nD τ))) (hF : ∀ w, Ff w = Vf (Pipeline.arrRef spec0 w)) :
    (dats m 0 c).arrays Ff ⊢ (Pipeline.arrBufs (Ix := Unit) (Name := ℕ) (U := UR sig nD τ) (Lvl := ℕ) spec0 c Vf : sProp 𝕄) := by
  rw [arrays_shares m c Ff, bigSep_W0, arrBufs_list]
  simp only [hF]
  iintro ⟨Hl, Hr, H3, H4, H5, H6, H7, H8, H9⟩
  isplitl [Hl Hr]
  · iapply (pointsTo_share (PosShare.mem_left_op_right fullShare)).2
    isplitl [Hl]; · iexact Hl
    iexact Hr
  isplitl [H3]; · iexact H3
  isplitl [H4]; · iexact H4
  isplitl [H5]; · iexact H5
  isplitl [H6]; · iexact H6
  isplitl [H7]; · iexact H7
  isplitl [H8]; · iexact H8
  iexact H9

/-! ## The contents when the call is left -/

/-- The output's array when the call is left: what the library computes from the proof data. -/
def outFinal (c : Dev nD) : Buf (Elt F) ((c : Thread nD τ).loc main_v9) := (dats m 0 c).arrAt 8 cfg0.N

open scoped Classical in
/-- Core `c`'s buffers when the call is left: the output's array at its final contents, all else as at the entry. -/
def W1 (c : Dev nD) : Valuation τ sig (Elt F) :=
  Function.update (StableHlo.after hostOps0 (V₀ m c)) (Proc.devRef .tc main_v9) (outFinal m c)

theorem W1_v9 (c : Dev nD) : W1 m c (Proc.devRef .tc main_v9) = outFinal m c := by
  unfold W1; exact Function.update_self _ _ _

theorem W1_of_ne (c : Dev nD) (b : Ref sig .tc) (hb : b ≠ main_v9) : W1 m c (Proc.devRef .tc b) = V m c b := by
  unfold W1; exact Function.update_of_ne (StableHlo.devRef_ne_of_ne hb) _ _

/-- The arrays' final contents are read off that valuation: an array the call only reads holds its entry contents. -/
theorem arrAt_final (c : Dev nD) (w : Fin cfg0.W) :
    (dats m 0 c).arrAt w cfg0.N = (fun b : Ref sig .tc => W1 m c (Proc.devRef .tc b)) (Pipeline.arrRef spec0 w) := by
  match w with
  | ⟨0, _⟩ => exact ((dats m 0 c).arrAt_in 0 rfl _).trans ((A_eq m c 0).trans (W1_of_ne m c _ (by decide)).symm)
  | ⟨1, _⟩ => exact ((dats m 0 c).arrAt_in 1 rfl _).trans ((A_eq m c 1).trans (W1_of_ne m c _ (by decide)).symm)
  | ⟨2, _⟩ => exact ((dats m 0 c).arrAt_in 2 rfl _).trans ((A_eq m c 2).trans (W1_of_ne m c _ (by decide)).symm)
  | ⟨3, _⟩ => exact ((dats m 0 c).arrAt_in 3 rfl _).trans ((A_eq m c 3).trans (W1_of_ne m c _ (by decide)).symm)
  | ⟨4, _⟩ => exact ((dats m 0 c).arrAt_in 4 rfl _).trans ((A_eq m c 4).trans (W1_of_ne m c _ (by decide)).symm)
  | ⟨5, _⟩ => exact ((dats m 0 c).arrAt_in 5 rfl _).trans ((A_eq m c 5).trans (W1_of_ne m c _ (by decide)).symm)
  | ⟨6, _⟩ => exact ((dats m 0 c).arrAt_in 6 rfl _).trans ((A_eq m c 6).trans (W1_of_ne m c _ (by decide)).symm)
  | ⟨7, _⟩ => exact ((dats m 0 c).arrAt_in 7 rfl _).trans ((A_eq m c 7).trans (W1_of_ne m c _ (by decide)).symm)
  | ⟨8, _⟩ => exact (W1_v9 m c).symm

/-! ## @main as three segments -/

theorem fresh0 : ∀ op ∈ (hostOps0 : List (HloOp τ sig (Elt F))), op.fresh = ∅ := by
  intro _ h; (repeat (cases h with | head => rfl | tail _ h => ?_)); exact nomatch h
theorem fresh1 : ∀ op ∈ (hostOps1 : List (HloOp τ sig (Elt F))), op.fresh = ∅ := by
  intro _ h; (repeat (cases h with | head => rfl | tail _ h => ?_)); exact nomatch h

/-- The eleven operations before the call, over the unscoped buffers. -/
def seg0 : Pipeline.HostSeg (Name := ℕ) (U := UR sig nD τ) (pcfgs (F := F)) defs₀ 𝒱₀ L lv :=
  Pipeline.HostSeg.ofOps _ _ _ _ _ (Pipeline.ucRefs τ sig) hostOps0 (fun op h => Pipeline.sub_ucRefs op ((List.forall_iff_forall_mem.mp hostOps0_sub) op h))
    fresh0 (V₀ m) R

/-- The three operations after it, over the unscoped buffers as the call left them. -/
def seg1 : Pipeline.HostSeg (Name := ℕ) (U := UR sig nD τ) (pcfgs (F := F)) defs₀ 𝒱₀ L lv :=
  Pipeline.HostSeg.ofOps _ _ _ _ _ (Pipeline.ucRefs τ sig) hostOps1 (fun op h => Pipeline.sub_ucRefs op ((List.forall_iff_forall_mem.mp hostOps1_sub) op h))
    fresh1 (W1 m) R

set_option backward.isDefEq.respectTransparency.types false in
/-- The call: entered from what the first eleven operations left, the buffers behind the windows' arrays dealt to the
    windows and every other unscoped buffer bypassing it; left with the arrays at their final contents put back. -/
def reg0 : Pipeline.RegionSeg (pcfgs (F := F)) adm (dats m) () defs₀ 𝒱₀ L lv 0 where
  win := winFacts₀0
  block_pos := block_pos0
  stage_whole := stage_whole0
  K := PEmpty
  osem := fun k => k.elim
  ho := Pipeline.OwnSemFacts.none _
  hbody c := (body_obligation m c).loose
  hwaits := Pipeline.hwaits_of_owed_zero _ _ _ _ L lv 0 fun _ _ => rfl
  pre c := iprop(StableHlo.held (c : Thread nD τ) (Pipeline.ucRefs τ sig) (StableHlo.after hostOps0 (V₀ m c)) ∗ R c)
  post c := iprop(StableHlo.held (c : Thread nD τ) (Pipeline.ucRefs τ sig) (W1 m c) ∗ R c)
  X c := iprop(emp)
  Y c := iprop(emp)
  Z c := Pipeline.unscopedRest (Ix := Unit) (Name := ℕ) (U := UR sig nD τ) (Lvl := ℕ) spec0 c (V m c)
  hentry c := by
    rw [show StableHlo.held (c : Thread nD τ) (Pipeline.ucRefs τ sig) (StableHlo.after hostOps0 (V₀ m c)) = unscopedBufs c (V m c) from (Pipeline.unscopedBufs_held c _).symm,
      Pipeline.unscopedBufs_split₀ cfgs 0 winFacts₀0.arr_unscoped c (V m c)]
    iintro ⟨⟨⟨Ha, Hrest⟩, HO⟩, -, -⟩
    ihave Ha' := (arrays_of_arrBufs m c (V m c) ((dats m 0 c).arrAt · 0) (fun w => A_eq m c w)) $$ Ha
    imodintro
    isplitl [Ha']; · iexact Ha'
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact Hrest
  hin c := by
    rw [show (dats m 0 c).Φ 0 = Pipeline.scopedRest (Ix := Unit) (Name := ℕ) (U := UR sig nD τ) (Lvl := ℕ) (Val := Elt F) spec0 c from rfl]
    iintro ⟨-, -, Hr⟩; iexact Hr
  hout c := by
    rw [Pipeline.ownSems0_none, show (dats m 0 c).Φ (Fin.last cfg0.N) = Pipeline.scopedRest (Ix := Unit) (Name := ℕ) (U := UR sig nD τ) (Lvl := ℕ) (Val := Elt F) spec0 c from rfl]
    iintro Hr
    isplitr; · iempintro
    isplitr; · iempintro
    iexact Hr
  hexit c := by
    rw [show StableHlo.held (c : Thread nD τ) (Pipeline.ucRefs τ sig) (W1 m c) = unscopedBufs c (fun b => W1 m c (Proc.devRef .tc b)) from (Pipeline.unscopedBufs_held c _).symm,
      Pipeline.unscopedBufs_split₀ cfgs 0 winFacts₀0.arr_unscoped c (fun b => W1 m c (Proc.devRef .tc b)),
      unscopedRest0_eq c (fun b => W1 m c (Proc.devRef .tc b)), unscopedRest0_eq c (V m c)]
    simp only [W1_of_ne m c _ (by decide : main_arg1 ≠ main_v9), W1_of_ne m c _ (by decide : main_v0 ≠ main_v9), W1_of_ne m c _ (by decide : main_cst ≠ main_v9), W1_of_ne m c _ (by decide : main_v1 ≠ main_v9), W1_of_ne m c _ (by decide : main_cst_0 ≠ main_v9), W1_of_ne m c _ (by decide : main_v2 ≠ main_v9), W1_of_ne m c _ (by decide : main_v10 ≠ main_v9), W1_of_ne m c _ (by decide : main_cst_1 ≠ main_v9), W1_of_ne m c _ (by decide : main_v11 ≠ main_v9)]
    iintro ⟨Ha, HO, -, Hrest⟩
    ihave Ha' := (arrBufs_of_arrays m c (fun b => W1 m c (Proc.devRef .tc b)) ((dats m 0 c).arrAt · cfg0.N) (fun w => arrAt_final m c w)) $$ Ha
    imodintro
    isplitr [HO]
    · isplitl [Ha']; · iexact Ha'
      iexact Hrest
    · unfold Pipeline.Dat.owesAt Pipeline.owesWithin
      icases HO with ⟨%W, -, HO⟩; iexists W; iexact HO

/-- @main as the list of the three. -/
abbrev segs : List (Pipeline.Seg (pcfgs (F := F)) adm (dats m) () defs₀ 𝒱₀ L lv) := [.host (seg0 m), .region (reg0 m), .host (seg1 m)]

/-- The launch element: the pipeline library's, at the staging cells. -/
def u₀ : UR sig nD τ := initOf (Pipeline.cells cfgs cellOf_inj) (Pipeline.launchToks cfgs cellOf_inj)

/-- Core `c`'s buffers at the end: the last three operations applied to what the call left. -/
abbrev Wend (c : Dev nD) : Valuation τ sig (Elt F) := StableHlo.after hostOps1 (W1 m c)

set_option backward.isDefEq.respectTransparency.types false in
/-- At the compiled mesh, for any values, from any memory with zero counters: every weakly fair execution of @main on the
    TensorCores terminates, and in every final state every unscoped buffer holds what the last host operations leave of the
    contents at the call's exit. -/
theorem run_main : θ_run defs (onTc (τ := τ) (main (F := F))) ⟨m, fun _ => 0, ρ⟩
    (fun r => ∀ c : Dev nD, ∀ b ∈ (Finset.univ.filter fun b : Ref sig .tc => ¬ b.isScoped),
      r.2.mem ((c : Thread nD τ).loc b) = Wend m c (Proc.devRef .tc b)) :=
  Pipeline.θ_run_regions_kit (pcfgs (F := F)) adm (dats m) () cellOf_inj EP defs₀ 𝒱₀ L lv m ρ main (segs m)
    (fun c Q => by rw [main_segs adm (dats m) () 𝒱₀ L lv (seg0 m) (seg1 m) (reg0 m) rfl rfl c])
    (by simp only [Pipeline.Seg.pipes_host, Pipeline.Seg.pipes_region, Pipeline.Seg.pipes_nil]; decide) (O₀ := 0) (hL := fun _ _ => rfl) (G := fun _ => iprop(emp)) (u₀ := u₀)
    (hu₀ := by
      unfold u₀
      iintro Hu
      imodintro
      isplitl [Hu]; · iapply (show (ownU _ : sProp 𝕄) ⊢ BI.own (emb₁ (initOf (Pipeline.cells cfgs cellOf_inj) (Pipeline.launchToks cfgs cellOf_inj))) from .rfl); iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V₀ m c) ∗ R c))
    (Tₙ := fun c => StableHlo.held (c : Thread nD τ) (Pipeline.ucRefs τ sig) (Wend m c))
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (V₀ m c) from Pipeline.unscopedBufs_held c (V₀ m c)]
      iintro ⟨⟨Hh, -, HO, -, -, -⟩, -⟩
      imodintro
      isplitl [Hh]; · iexact Hh
      iexists ∅; iexact HO)
    (QY := fun c s => ∀ b ∈ (Finset.univ.filter fun b : Ref sig .tc => ¬ b.isScoped), s.mem ((c : Thread nD τ).loc b) = Wend m c (Proc.devRef .tc b))
    (hfin := fun c s' => by
      rw [show StableHlo.held (c : Thread nD τ) (Pipeline.ucRefs τ sig) (Wend m c) = unscopedBufs c (fun b => Wend m c (Proc.devRef .tc b)) from (Pipeline.unscopedBufs_held c _).symm]
      unfold unscopedBufs
      iintro ⟨HU, HSI⟩
      imodintro
      iapply (pointsTo_read_all (Finset.univ.filter fun b : Ref sig .tc => ¬ b.isScoped) (fun b => (c : Thread nD τ).loc b) (fun b => Wend m c (Proc.devRef .tc b)) s')
      isplitl [HU] <;> iassumption)
    (hQ := fun _ h => h)

/-! ## The arguments at the end -/

/-- No host operation before the call writes an argument array; -/
theorem V_arg0 (c : Dev nD) : V m c main_arg0 = m ((c : Thread nD τ).loc main_arg0) := by
  dsimp only [V, hostOps0]
  after_results
theorem V_arg1 (c : Dev nD) : V m c main_arg1 = m ((c : Thread nD τ).loc main_arg1) := by
  dsimp only [V, hostOps0]
  after_results

/-- none after it does, and the call leaves them as it found them: at the end they hold their launch contents. -/
theorem Wend_arg0 (c : Dev nD) : Wend m c (Proc.devRef .tc main_arg0) = m ((c : Thread nD τ).loc main_arg0) := by
  have h : Wend m c (Proc.devRef .tc main_arg0) = W1 m c (Proc.devRef .tc main_arg0) := by
    dsimp only [Wend, hostOps1]
    after_results
  rw [h, W1_of_ne m c _ (by decide)]
  exact V_arg0 m c
theorem Wend_arg1 (c : Dev nD) : Wend m c (Proc.devRef .tc main_arg1) = m ((c : Thread nD τ).loc main_arg1) := by
  have h : Wend m c (Proc.devRef .tc main_arg1) = W1 m c (Proc.devRef .tc main_arg1) := by
    dsimp only [Wend, hostOps1]
    after_results
  rw [h, W1_of_ne m c _ (by decide)]
  exact V_arg1 m c

/-- THE FRAME: every weakly fair execution terminates, nothing faulting, with both argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨(h c main_arg0 (by decide)).trans (Wend_arg0 m c), (h c main_arg1 (by decide)).trans (Wend_arg1 m c)⟩)
    (run_main m ρ)

end Cert.Kernel.Hand

end
-- ==== Proof.FrameKernelIdeal.Base.lean ====
/-
  What the body's runs and the proof data of the one pipelined call share: the contents of the core's arrays when the
  region is entered (the eleven host operations before it applied to the launch memory), each window's block at a grid
  point read off its array, the fact that an input window's staging buffer holds that block whenever the body runs
  (fetched at the point or not: an unfetched window's block index has not moved), the condition of the body's one
  branch (both grid coordinates zero: the first point only), and names for the staging buffers the pipeline passes.
-/
import proofs.«149557_j76081050681843_1_alg».proof.Proof.Gen.KernelIdeal.Launch
import proofs.«149557_j76081050681843_1_alg».proof.Proof.Gen.KernelIdeal.Skeleton
import proofs.«149557_j76081050681843_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays at the region's entry -/

/-- Core `c`'s buffers at launch, as a valuation; -/
abbrev V₀ (c : Dev nD) : Valuation τ sig (Elt F) := fun b => m (c, b)
/-- and when the region is entered: the host operations before it have run. -/
abbrev V (c : Dev nD) (b : Ref sig .tc) : Buf (Elt F) ((c : Thread nD τ).loc b) := StableHlo.after hostOps0 (V₀ m c) b

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, for any proof data whose array is the
    region-entry contents and whose body leaves the block in place: the window is uncut and never idle, and where it is
    not fetched its block index is the previous point's. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds its block at every point, for any proof data whose array is the
    region-entry contents and whose body leaves the block in place: the window is uncut and never idle, and where it is
    not fetched its block index is the previous point's. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current staging buffer holds its block at every point, for any proof data whose array is the
    region-entry contents and whose body leaves the block in place: the window is uncut and never idle, and where it is
    not fetched its block index is the previous point's. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's current staging buffer holds its block at every point, for any proof data whose array is the
    region-entry contents and whose body leaves the block in place: the window is uncut and never idle, and where it is
    not fetched its block index is the previous point's. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- Input window 4's current staging buffer holds its block at every point, for any proof data whose array is the
    region-entry contents and whose body leaves the block in place: the window is uncut and never idle, and where it is
    not fetched its block index is the previous point's. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-- Input window 5's current staging buffer holds its block at every point, for any proof data whose array is the
    region-entry contents and whose body leaves the block in place: the window is uncut and never idle, and where it is
    not fetched its block index is the previous point's. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-- Input window 6's current staging buffer holds its block at every point, for any proof data whose array is the
    region-entry contents and whose body leaves the block in place: the window is uncut and never idle, and where it is
    not fetched its block index is the previous point's. -/
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

/-- Input window 7's current staging buffer holds its block at every point, for any proof data whose array is the
    region-entry contents and whose body leaves the block in place: the window is uncut and never idle, and where it is
    not fetched its block index is the previous point's. -/
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)

/-! ## The body's branch -/

/-- The condition of the body's one branch, from the grid coordinates: both are zero. -/
abbrev cond0_0 (i : grid0.Coords) : Prop :=
  (Scalar.cmpi .ne (Scalar.extui (Scalar.andi (Scalar.cmpi .eq (BitVec.ofNat 32 (i 0).val) 0#32) (Scalar.cmpi .eq (BitVec.ofNat 32 (i 1).val) 0#32))) 0#32) = 1#1
/-- It holds at the first point only — decided over the grid. -/
theorem hcond0_0 : ∀ t : Fin cfg0.N, cond0_0 (grid0.coords t) ↔ t.val % 64 = 0 :=
  (by decide +kernel : ∀ t : Fin grid0.N, cond0_0 (grid0.coords t) ↔ t.val % 64 = 0)

/-! ## The staging buffers at a point -/

/-- One staging buffer of the output window, through which its contents are stated. -/
abbrev VO0_8 : View sig .tc .vmem S1x1 .f32 := (Memref.whole cc0_stg8_0 : Memref sig .tc .vmem S1x1 .f32).view
abbrev ms0_0 (t : Fin cfg0.N) : Memref sig .tc .vmem S1024x256 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x256 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x1 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1024 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1024x1 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x1024 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1024x1 .i32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x1024 .i32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x1 .f32 := win0_8.stage (cfg0.slots t 8)
abbrev hs0_8 (t : Fin cfg0.N) : (ms0_8 t).IsWhole := hstage0_8 ((cfg0.slots t 8).cast nbuf0_8)

end Cert.KernelIdeal.Hand

end
-- ==== Proof.FrameKernelIdeal.RunA.lean ====
/-
  The body of the pipelined call run once, at a grid point where its branch is taken (the first point): the scalar
  accumulator is reset to zero, then the tile's sum is added to it. The run holds every input's staging buffer at its
  contents throughout and ends with the output's staging buffer written by the stores it lists, last first.
-/
import proofs.«149557_j76081050681843_1_alg».proof.Proof.FrameKernelIdeal.Base

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The stores the body leaves in the output's staging buffer in this case, as pieces (last first), with the proof that on
    whole staging buffers — the inputs' at their contents, the output's at anything — the body runs to the
    continuation holding the inputs' as they were and the output's with those pieces written. -/
noncomputable def kernelRun0_A (c : Dev nD) (i : grid0.Coords) (arg2 : Memref sig .tc .vmem S1024x256 .f32) (harg2 : arg2.IsWhole) (arg3 : Memref sig .tc .vmem S1024x256 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1 .f32) (harg6 : arg6.IsWhole) (arg7 : Memref sig .tc .vmem S1x1024 .f32) (harg7 : arg7.IsWhole) (arg8 : Memref sig .tc .vmem S1024x1 .i32) (harg8 : arg8.IsWhole) (arg9 : Memref sig .tc .vmem S1x1024 .i32) (harg9 : arg9.IsWhole) (arg10 : Memref sig .tc .vmem S1x1 .f32) (harg10 : arg10.IsWhole) (hc0 : cond0_0 i)
    (x0 : Vec F S1024x256 .f32) (x1 : Vec F S1024x256 .f32) (x2 : Vec F S1024x1 .f32) (x3 : Vec F S1x1024 .f32) (x4 : Vec F S1024x1 .f32) (x5 : Vec F S1x1024 .f32) (x6 : Vec F S1024x1 .i32) (x7 : Vec F S1x1024 .i32) :
    { L8 : List (View.Piece (Elt F) S1x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ f, arg10.view.loc (c : Thread nD τ) ↦[arg10.view.set]{fullShare} arg10.view.writes (Elt F) f L8)) -∗ K ⟨⟩))
          ⊢ wp frame (wpE (defs₀ (F := F)) Variants.none c none) E (cc0__contrastive_kernel i arg2 harg2 arg3 harg3 arg4 harg4 arg5 harg5 arg6 harg6 arg7 harg7 arg8 harg8 arg9 harg9 arg10 harg10) K } := by
  refine ⟨?_, fun E K => ?run⟩
  case run =>
    simp only [cc0__contrastive_kernel_eq_skeleton]; unfold cc0__contrastive_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    iexists _; iexact H8

end Cert.KernelIdeal.Hand

end
-- ==== Proof.FrameKernelIdeal.RunB.lean ====
/-
  The body of the pipelined call run once, at a grid point where its branch is not taken (every later point): the
  tile's sum is added to the scalar accumulator the point before left. The run holds every input's staging buffer at its
  contents throughout and ends with the output's staging buffer written by the stores it lists, last first.
-/
import proofs.«149557_j76081050681843_1_alg».proof.Proof.FrameKernelIdeal.RunA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The stores the body leaves in the output's staging buffer in this case, as pieces (last first), with the proof that on
    whole staging buffers — the inputs' at their contents, the output's at its running contents — the body runs to the
    continuation holding the inputs' as they were and the output's with those pieces written. -/
noncomputable def kernelRun0_B (c : Dev nD) (i : grid0.Coords) (arg2 : Memref sig .tc .vmem S1024x256 .f32) (harg2 : arg2.IsWhole) (arg3 : Memref sig .tc .vmem S1024x256 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1 .f32) (harg6 : arg6.IsWhole) (arg7 : Memref sig .tc .vmem S1x1024 .f32) (harg7 : arg7.IsWhole) (arg8 : Memref sig .tc .vmem S1024x1 .i32) (harg8 : arg8.IsWhole) (arg9 : Memref sig .tc .vmem S1x1024 .i32) (harg9 : arg9.IsWhole) (arg10 : Memref sig .tc .vmem S1x1 .f32) (harg10 : arg10.IsWhole) (hc0 : ¬cond0_0 i)
    (x0 : Vec F S1024x256 .f32) (x1 : Vec F S1024x256 .f32) (x2 : Vec F S1024x1 .f32) (x3 : Vec F S1x1024 .f32) (x4 : Vec F S1024x1 .f32) (x5 : Vec F S1x1024 .f32) (x6 : Vec F S1024x1 .i32) (x7 : Vec F S1x1024 .i32) (xo8 : Vec F S1x1 .f32) :
    { L8 : List (View.Piece (Elt F) S1x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare xo8
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ f, arg10.view.loc (c : Thread nD τ) ↦[arg10.view.set]{fullShare} arg10.view.writes (Elt F) f L8)) -∗ K ⟨⟩))
          ⊢ wp frame (wpE (defs₀ (F := F)) Variants.none c none) E (cc0__contrastive_kernel i arg2 harg2 arg3 harg3 arg4 harg4 arg5 harg5 arg6 harg6 arg7 harg7 arg8 harg8 arg9 harg9 arg10 harg10) K } := by
  refine ⟨?_, fun E K => ?run⟩
  case run =>
    simp only [cc0__contrastive_kernel_eq_skeleton]; unfold cc0__contrastive_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    iexists _; iexact H8

end Cert.KernelIdeal.Hand

end
-- ==== Proof.FrameKernelIdeal.Body.lean ====
/-
  The proof data of the one pipelined call and its body obligation. After the body at a grid point every input window's
  staging buffer still holds its block, and the output window's single cell holds the running scalar: at the first point
  what the branch-taken run leaves over a fresh buffer, at every later point what the other run leaves over the contents
  the point before left (the output is written back only after the last point, so nothing touches the buffer in between).
-/
import proofs.«149557_j76081050681843_1_alg».proof.Proof.FrameKernelIdeal.RunB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The first point's stores tile the output's one-cell block, so they cover it. -/
theorem cover0_A_8 (c : Dev nD) (i : grid0.Coords) (arg2 : Memref sig .tc .vmem S1024x256 .f32) (harg2 : arg2.IsWhole) (arg3 : Memref sig .tc .vmem S1024x256 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1 .f32) (harg6 : arg6.IsWhole) (arg7 : Memref sig .tc .vmem S1x1024 .f32) (harg7 : arg7.IsWhole) (arg8 : Memref sig .tc .vmem S1024x1 .i32) (harg8 : arg8.IsWhole) (arg9 : Memref sig .tc .vmem S1x1024 .i32) (harg9 : arg9.IsWhole) (arg10 : Memref sig .tc .vmem S1x1 .f32) (harg10 : arg10.IsWhole) (hc0 : cond0_0 i)
    (x0 : Vec F S1024x256 .f32) (x1 : Vec F S1024x256 .f32) (x2 : Vec F S1024x1 .f32) (x3 : Vec F S1x1024 .f32) (x4 : Vec F S1024x1 .f32) (x5 : Vec F S1x1024 .f32) (x6 : Vec F S1024x1 .i32) (x7 : Vec F S1x1024 .i32) (y : S1x1.Idx) :
    ∃ pc ∈ (kernelRun0_A c i arg2 harg2 arg3 harg3 arg4 harg4 arg5 harg5 arg6 harg6 arg7 harg7 arg8 harg8 arg9 harg9 arg10 harg10 hc0 x0 x1 x2 x3 x4 x5 x6 x7).1, y ∈ pc.1.set :=
  View.cover_of_tiledL (kernelRun0_A c i arg2 harg2 arg3 harg3 arg4 harg4 arg5 harg5 arg6 harg6 arg7 harg7 arg8 harg8 arg9 harg9 arg10 harg10 hc0 x0 x1 x2 x3 x4 x5 x6 x7).1 S1x1.size (by sl_kernel_rfl) y

/-- What the first point leaves in the output's staging buffer: its stores read back over anything. -/
def out0_A_8 (c : Dev nD) (i : grid0.Coords) (arg2 : Memref sig .tc .vmem S1024x256 .f32) (harg2 : arg2.IsWhole) (arg3 : Memref sig .tc .vmem S1024x256 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1 .f32) (harg6 : arg6.IsWhole) (arg7 : Memref sig .tc .vmem S1x1024 .f32) (harg7 : arg7.IsWhole) (arg8 : Memref sig .tc .vmem S1024x1 .i32) (harg8 : arg8.IsWhole) (arg9 : Memref sig .tc .vmem S1x1024 .i32) (harg9 : arg9.IsWhole) (arg10 : Memref sig .tc .vmem S1x1 .f32) (harg10 : arg10.IsWhole) (hc0 : cond0_0 i)
    (x0 : Vec F S1024x256 .f32) (x1 : Vec F S1024x256 .f32) (x2 : Vec F S1024x1 .f32) (x3 : Vec F S1x1024 .f32) (x4 : Vec F S1024x1 .f32) (x5 : Vec F S1x1024 .f32) (x6 : Vec F S1024x1 .i32) (x7 : Vec F S1x1024 .i32) : Vec F S1x1 .f32 :=
  VO0_8.read (Elt F) (VO0_8.writes (Elt F) VO0_8.junk (kernelRun0_A c i arg2 harg2 arg3 harg3 arg4 harg4 arg5 harg5 arg6 harg6 arg7 harg7 arg8 harg8 arg9 harg9 arg10 harg10 hc0 x0 x1 x2 x3 x4 x5 x6 x7).1)

/-- A later point's store tiles the output's one-cell block, so it covers it. -/
theorem cover0_B_8 (c : Dev nD) (i : grid0.Coords) (arg2 : Memref sig .tc .vmem S1024x256 .f32) (harg2 : arg2.IsWhole) (arg3 : Memref sig .tc .vmem S1024x256 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1 .f32) (harg6 : arg6.IsWhole) (arg7 : Memref sig .tc .vmem S1x1024 .f32) (harg7 : arg7.IsWhole) (arg8 : Memref sig .tc .vmem S1024x1 .i32) (harg8 : arg8.IsWhole) (arg9 : Memref sig .tc .vmem S1x1024 .i32) (harg9 : arg9.IsWhole) (arg10 : Memref sig .tc .vmem S1x1 .f32) (harg10 : arg10.IsWhole) (hc0 : ¬cond0_0 i)
    (x0 : Vec F S1024x256 .f32) (x1 : Vec F S1024x256 .f32) (x2 : Vec F S1024x1 .f32) (x3 : Vec F S1x1024 .f32) (x4 : Vec F S1024x1 .f32) (x5 : Vec F S1x1024 .f32) (x6 : Vec F S1024x1 .i32) (x7 : Vec F S1x1024 .i32) (xo8 : Vec F S1x1 .f32) (y : S1x1.Idx) :
    ∃ pc ∈ (kernelRun0_B c i arg2 harg2 arg3 harg3 arg4 harg4 arg5 harg5 arg6 harg6 arg7 harg7 arg8 harg8 arg9 harg9 arg10 harg10 hc0 x0 x1 x2 x3 x4 x5 x6 x7 xo8).1, y ∈ pc.1.set :=
  View.cover_of_tiledL (kernelRun0_B c i arg2 harg2 arg3 harg3 arg4 harg4 arg5 harg5 arg6 harg6 arg7 harg7 arg8 harg8 arg9 harg9 arg10 harg10 hc0 x0 x1 x2 x3 x4 x5 x6 x7 xo8).1 S1x1.size (by sl_kernel_rfl) y

/-- What a later point leaves in the output's staging buffer, over the running contents `xo8`. -/
def out0_B_8 (c : Dev nD) (i : grid0.Coords) (arg2 : Memref sig .tc .vmem S1024x256 .f32) (harg2 : arg2.IsWhole) (arg3 : Memref sig .tc .vmem S1024x256 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1 .f32) (harg6 : arg6.IsWhole) (arg7 : Memref sig .tc .vmem S1x1024 .f32) (harg7 : arg7.IsWhole) (arg8 : Memref sig .tc .vmem S1024x1 .i32) (harg8 : arg8.IsWhole) (arg9 : Memref sig .tc .vmem S1x1024 .i32) (harg9 : arg9.IsWhole) (arg10 : Memref sig .tc .vmem S1x1 .f32) (harg10 : arg10.IsWhole) (hc0 : ¬cond0_0 i)
    (x0 : Vec F S1024x256 .f32) (x1 : Vec F S1024x256 .f32) (x2 : Vec F S1024x1 .f32) (x3 : Vec F S1x1024 .f32) (x4 : Vec F S1024x1 .f32) (x5 : Vec F S1x1024 .f32) (x6 : Vec F S1024x1 .i32) (x7 : Vec F S1x1024 .i32) (xo8 : Vec F S1x1 .f32) : Vec F S1x1 .f32 :=
  VO0_8.read (Elt F) (VO0_8.writes (Elt F) VO0_8.junk (kernelRun0_B c i arg2 harg2 arg3 harg3 arg4 harg4 arg5 harg5 arg6 harg6 arg7 harg7 arg8 harg8 arg9 harg9 arg10 harg10 hc0 x0 x1 x2 x3 x4 x5 x6 x7 xo8).1)

/-! ## The running scalar, point by point -/

/-- What the output's staging buffer holds after the body at position `n`: the first point's run over the point's input
    blocks, then each later point's run over its input blocks and what the point before left. -/
def outsAt0 (c : Dev nD) : (n : ℕ) → n < cfg0.N → Vec F S1x1 .f32
  | 0, hn => out0_A_8 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩)
  | n + 1, hn =>
    if h0 : (n + 1) % 64 = 0 then
      out0_A_8 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩)
    else
      out0_B_8 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (outsAt0 c n (Nat.lt_of_succ_lt hn))

/-- At the first point. -/
theorem outsAt0_A (c : Dev nD) (t : Fin cfg0.N) (h0 : t.val % 64 = 0) :
    outsAt0 m c t.val t.isLt = out0_A_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) ((hcond0_0 t).mpr h0) (iblk m c 0 t) (iblk m c 1 t) (iblk m c 2 t) (iblk m c 3 t) (iblk m c 4 t) (iblk m c 5 t) (iblk m c 6 t) (iblk m c 7 t) := by
  obtain ⟨n, hn⟩ := t
  cases n with
  | zero => exact rfl
  | succ n => exact (dif_pos h0).trans rfl

/-- At a later point: over what the point before left. -/
theorem outsAt0_B (c : Dev nD) (t : Fin cfg0.N) (h0 : ¬t.val % 64 = 0) :
    outsAt0 m c t.val t.isLt = out0_B_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (fun h => h0 ((hcond0_0 t).mp h)) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-! ## The proof data -/

/-- The proof data on core `c`: the arrays as the region finds them; after the body each input's buffer at its block and
    the output's at the running scalar; the invariant the scoped buffers no window stages; nothing owed. The two windows on
    the first argument's array hold one half of it each; every other array is held whole. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => (outsAt0 m c t.val t.isLt)
  Φ _ := Pipeline.scopedRest (Ix := Unit) (Name := ℕ) (U := UR sig nD τ) (Lvl := ℕ) (Val := Elt F) spec0 c
  q w := match w with
    | ⟨0, _⟩ => fullShare.left
    | ⟨1, _⟩ => fullShare.right
    | ⟨2, _⟩ => fullShare
    | ⟨3, _⟩ => fullShare
    | ⟨4, _⟩ => fullShare
    | ⟨5, _⟩ => fullShare
    | ⟨6, _⟩ => fullShare
    | ⟨7, _⟩ => fullShare
    | ⟨8, _⟩ => fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = (outsAt0 m c t.val t.isLt) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d

/-- At a later point the output's staging buffer holds what the body left at the point before: the buffer is written back
    only after the last point, and the window is live and uncut. -/
theorem before0_8_B (c : Dev nD) (t : Fin cfg0.N) (h0 : ¬t.val % 64 = 0) (d) :
    (dats m 0 c).before 8 t d = (outsAt0 m c (t.val - 1) (Nat.lt_of_le_of_lt (Nat.sub_le _ _) t.isLt)) := by
  have hN : t.val < 64 := lt_of_lt_of_eq t.isLt (show cfg0.N = 64 from N_0)
  rw [Dat.before_out_kept _ 8 rfl t (by omega) (Bool.eq_false_iff.mpr fun h => by have := (flush0_8 _).mp h; dsimp only at this; omega)
    (fun _ => rfl) (fun _ _ => rfl)]
  dsimp only [dats]

/-! ## The body obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t))

set_option maxHeartbeats 1600000 in
/-- The body at any point: the inputs' buffers hold their blocks; at the first point the branch-taken run applies over a
    fresh output buffer, at a later point the other run over what the point before left; the invariant passes through
    unread and the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8]
  have hN : t.val < 64 := lt_of_lt_of_eq t.isLt (show cfg0.N = 64 from N_0)
  by_cases h0 : t.val % 64 = 0
  · rw [outsAt0_A m c t h0]
    unfold out0_A_8
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply ((kernelRun0_A c (grid0.coords t) _ _ _ _ _ _ _ _ _ _ _ _ _ _ _ _ _ _ ((hcond0_0 t).mpr h0) (iblk m c 0 t) (iblk m c 1 t) (iblk m c 2 t) (iblk m c 3 t) (iblk m c 4 t) (iblk m c 5 t) (iblk m c 6 t) (iblk m c 7 t)).2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    iintro ⟨H0, H1, H2, H3, H4, H5, H6, H7, ⟨%e8, H8⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    unfold owns; iexists _; isplitr
    swap; · iexact H8
    ipureintro; exact View.read_writes_of_cover _ _ _ _ _ (cover0_A_8 c _ _ _ _ _ _ _ _ _ _ _ _ _ _ _ _ _ _ _ _ _ _ _ _ _ _ _ _)
  · rw [outsAt0_B m c t h0]
    simp only [before0_8_B m c t h0]
    unfold out0_B_8
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply ((kernelRun0_B c (grid0.coords t) _ _ _ _ _ _ _ _ _ _ _ _ _ _ _ _ _ _ (fun h => h0 ((hcond0_0 t).mp h)) (iblk m c 0 t) (iblk m c 1 t) (iblk m c 2 t) (iblk m c 3 t) (iblk m c 4 t) (iblk m c 5 t) (iblk m c 6 t) (iblk m c 7 t) _).2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iintro ⟨H0, H1, H2, H3, H4, H5, H6, H7, ⟨%e8, H8⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    unfold owns; iexists _; isplitr
    swap; · iexact H8
    ipureintro; exact View.read_writes_of_cover _ _ _ _ _ (cover0_B_8 c _ _ _ _ _ _ _ _ _ _ _ _ _ _ _ _ _ _ _ _ _ _ _ _ _ _ _ _ _)

/-- The library's body obligation, at every point. -/
theorem body_obligation (c : Dev nD) : BodyObligation (dats (F := F) m 0 c) (defs₀ (F := F)) Variants.none () Set.univ := fun t => by
  rw [bigSep_W0, bigSep_W0]
  exact sound_body m c t

end Cert.KernelIdeal.Hand

end
-- ==== Proof.FrameKernelIdeal.Run.lean ====
/-
  The run of the whole program: eleven host operations, the pipelined call, three host operations. Between two of these
  the core holds every unscoped buffer whole at known contents. At the call's entry the buffers behind the windows' arrays
  are dealt to the nine windows — the first argument's array, which two windows read, split into two halves of its share,
  every other array whole — and at its exit the halves are joined again, the arrays the call only reads holding what they
  held and the output's array the last running scalar. Read at the end, every unscoped buffer holds the last three host
  operations' result of that.
-/
import proofs.«149557_j76081050681843_1_alg».proof.Proof.FrameKernelIdeal.Body
import Idealize.ShloMosaic.Lib.Pipeline.Regions
import Idealize.ShloMosaic.Lib.Pipeline.Frame

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev 𝒱₀ : Variants := Variants.none
/-- No core owes another anything: no level is assigned. -/
abbrev L : GSem nD τ sig → Finset Unit := fun _ => ∅
abbrev lv : GSem nD τ sig → Unit → ℕ := fun _ _ => 0
/-- The pipeline prefetches no table. -/
abbrev adm : (p : Fin 1) → (pcfgs (F := F) p).Adm := fun p => (cfgs p).toPCfg_adm
abbrev EP : Emb (UR sig nD τ) (MT nD τ sig Unit (Elt F) ℕ (UR sig nD τ) ℕ) := emb₁

/-- What rides beside the buffers through the host operations: that the core owes nothing. -/
abbrev R (c : Dev nD) : sProp 𝕄 := iprop(∃ W, owes (c : Thread nD τ) (0 : CellTallies nD τ sig Unit) W)

/-! ## The windows' arrays and their shares -/

/-- The pipeline's arrays, window by window, each a whole buffer at its share. -/
theorem arrays_shares (c : Dev nD) (Ff : (w : Fin cfg0.W) → Buf (Elt F) ((cfg0.win w).arr.view.loc (c : Thread nD τ))) :
    (dats m 0 c).arrays Ff = bigSep Finset.univ fun w => (((c : Thread nD τ).loc (Pipeline.arrRef spec0 w)) ↦{(dats m 0 c).share w} Ff w : sProp 𝕄) := by
  unfold Dat.arrays
  exact bigSep_congr fun w _ => by rw [(arr_whole0 w).set_eq_univ]

/-- The eight buffers behind the nine windows' arrays, one by one. -/
theorem arrBufs_list (c : Dev nD) (Vf : (b : Ref sig .tc) → Buf (Elt F) ((c : Thread nD τ).loc b)) :
    (Pipeline.arrBufs (Ix := Unit) (Name := ℕ) (U := UR sig nD τ) (Lvl := ℕ) spec0 c Vf : sProp 𝕄)
      = iprop((((c : Thread nD τ).loc main_arg0) ↦{fullShare} Vf main_arg0) ∗ (((c : Thread nD τ).loc main_v3) ↦{fullShare} Vf main_v3) ∗ (((c : Thread nD τ).loc main_v4) ↦{fullShare} Vf main_v4) ∗ (((c : Thread nD τ).loc main_v5) ↦{fullShare} Vf main_v5) ∗ (((c : Thread nD τ).loc main_v6) ↦{fullShare} Vf main_v6) ∗ (((c : Thread nD τ).loc main_v7) ↦{fullShare} Vf main_v7) ∗ (((c : Thread nD τ).loc main_v8) ↦{fullShare} Vf main_v8) ∗ (((c : Thread nD τ).loc main_v9) ↦{fullShare} Vf main_v9)) := by
  unfold Pipeline.arrBufs
  exact bigSep_eq_bigSepL_of_eq [main_arg0, main_v3, main_v4, main_v5, main_v6, main_v7, main_v8, main_v9] (by decide) (by decide) _

/-- The eight buffers behind the nine windows' arrays, each whole at contents `Vf`, are the windows' arrays at those
    contents: the first argument's array is split between the two windows that read it. -/
theorem arrays_of_arrBufs (c : Dev nD) (Vf : (b : Ref sig .tc) → Buf (Elt F) ((c : Thread nD τ).loc b))
    (Ff : (w : Fin cfg0.W) → Buf (Elt F) ((cfg0.win w).arr.view.loc (c : Thread nD τ))) (hF : ∀ w, Ff w = Vf (Pipeline.arrRef spec0 w)) :
    (Pipeline.arrBufs (Ix := Unit) (Name := ℕ) (U := UR sig nD τ) (Lvl := ℕ) spec0 c Vf : sProp 𝕄) ⊢ (dats m 0 c).arrays Ff := by
  rw [arrays_shares m c Ff, bigSep_W0, arrBufs_list]
  simp only [hF]
  iintro ⟨H0, H3, H4, H5, H6, H7, H8, H9⟩
  ihave Hs := (pointsTo_share (PosShare.mem_left_op_right fullShare)).1 $$ H0
  icases Hs with ⟨Hl, Hr⟩
  isplitl [Hl]; · iexact Hl
  isplitl [Hr]; · iexact Hr
  isplitl [H3]; · iexact H3
  isplitl [H4]; · iexact H4
  isplitl [H5]; · iexact H5
  isplitl [H6]; · iexact H6
  isplitl [H7]; · iexact H7
  isplitl [H8]; · iexact H8
  iexact H9

/-- And back: the windows' arrays at contents read off `Vf` are the eight buffers whole at `Vf`, the two halves of the
    first argument's array joined. -/
theorem arrBufs_of_arrays (c : Dev nD) (Vf : (b : Ref sig .tc) → Buf (Elt F) ((c : Thread nD τ).loc b))
    (Ff : (w : Fin cfg0.W) → Buf (Elt F) ((cfg0.win w).arr.view.loc (c : Thread nD τ))) (hF : ∀ w, Ff w = Vf (Pipeline.arrRef spec0 w)) :
    (dats m 0 c).arrays Ff ⊢ (Pipeline.arrBufs (Ix := Unit) (Name := ℕ) (U := UR sig nD τ) (Lvl := ℕ) spec0 c Vf : sProp 𝕄) := by
  rw [arrays_shares m c Ff, bigSep_W0, arrBufs_list]
  simp only [hF]
  iintro ⟨Hl, Hr, H3, H4, H5, H6, H7, H8, H9⟩
  isplitl [Hl Hr]
  · iapply (pointsTo_share (PosShare.mem_left_op_right fullShare)).2
    isplitl [Hl]; · iexact Hl
    iexact Hr
  isplitl [H3]; · iexact H3
  isplitl [H4]; · iexact H4
  isplitl [H5]; · iexact H5
  isplitl [H6]; · iexact H6
  isplitl [H7]; · iexact H7
  isplitl [H8]; · iexact H8
  iexact H9

/-! ## The contents when the call is left -/

/-- The output's array when the call is left: what the library computes from the proof data. -/
def outFinal (c : Dev nD) : Buf (Elt F) ((c : Thread nD τ).loc main_v9) := (dats m 0 c).arrAt 8 cfg0.N

open scoped Classical in
/-- Core `c`'s buffers when the call is left: the output's array at its final contents, all else as at the entry. -/
def W1 (c : Dev nD) : Valuation τ sig (Elt F) :=
  Function.update (StableHlo.after hostOps0 (V₀ m c)) (Proc.devRef .tc main_v9) (outFinal m c)

theorem W1_v9 (c : Dev nD) : W1 m c (Proc.devRef .tc main_v9) = outFinal m c := by
  unfold W1; exact Function.update_self _ _ _

theorem W1_of_ne (c : Dev nD) (b : Ref sig .tc) (hb : b ≠ main_v9) : W1 m c (Proc.devRef .tc b) = V m c b := by
  unfold W1; exact Function.update_of_ne (StableHlo.devRef_ne_of_ne hb) _ _

/-- The arrays' final contents are read off that valuation: an array the call only reads holds its entry contents. -/
theorem arrAt_final (c : Dev nD) (w : Fin cfg0.W) :
    (dats m 0 c).arrAt w cfg0.N = (fun b : Ref sig .tc => W1 m c (Proc.devRef .tc b)) (Pipeline.arrRef spec0 w) := by
  match w with
  | ⟨0, _⟩ => exact ((dats m 0 c).arrAt_in 0 rfl _).trans ((A_eq m c 0).trans (W1_of_ne m c _ (by decide)).symm)
  | ⟨1, _⟩ => exact ((dats m 0 c).arrAt_in 1 rfl _).trans ((A_eq m c 1).trans (W1_of_ne m c _ (by decide)).symm)
  | ⟨2, _⟩ => exact ((dats m 0 c).arrAt_in 2 rfl _).trans ((A_eq m c 2).trans (W1_of_ne m c _ (by decide)).symm)
  | ⟨3, _⟩ => exact ((dats m 0 c).arrAt_in 3 rfl _).trans ((A_eq m c 3).trans (W1_of_ne m c _ (by decide)).symm)
  | ⟨4, _⟩ => exact ((dats m 0 c).arrAt_in 4 rfl _).trans ((A_eq m c 4).trans (W1_of_ne m c _ (by decide)).symm)
  | ⟨5, _⟩ => exact ((dats m 0 c).arrAt_in 5 rfl _).trans ((A_eq m c 5).trans (W1_of_ne m c _ (by decide)).symm)
  | ⟨6, _⟩ => exact ((dats m 0 c).arrAt_in 6 rfl _).trans ((A_eq m c 6).trans (W1_of_ne m c _ (by decide)).symm)
  | ⟨7, _⟩ => exact ((dats m 0 c).arrAt_in 7 rfl _).trans ((A_eq m c 7).trans (W1_of_ne m c _ (by decide)).symm)
  | ⟨8, _⟩ => exact (W1_v9 m c).symm

/-! ## @main as three segments -/

theorem fresh0 : ∀ op ∈ (hostOps0 : List (HloOp τ sig (Elt F))), op.fresh = ∅ := by
  intro _ h; (repeat (cases h with | head => rfl | tail _ h => ?_)); exact nomatch h
theorem fresh1 : ∀ op ∈ (hostOps1 : List (HloOp τ sig (Elt F))), op.fresh = ∅ := by
  intro _ h; (repeat (cases h with | head => rfl | tail _ h => ?_)); exact nomatch h

/-- The eleven operations before the call, over the unscoped buffers. -/
def seg0 : Pipeline.HostSeg (Name := ℕ) (U := UR sig nD τ) (pcfgs (F := F)) defs₀ 𝒱₀ L lv :=
  Pipeline.HostSeg.ofOps _ _ _ _ _ (Pipeline.ucRefs τ sig) hostOps0 (fun op h => Pipeline.sub_ucRefs op ((List.forall_iff_forall_mem.mp hostOps0_sub) op h))
    fresh0 (V₀ m) R

/-- The three operations after it, over the unscoped buffers as the call left them. -/
def seg1 : Pipeline.HostSeg (Name := ℕ) (U := UR sig nD τ) (pcfgs (F := F)) defs₀ 𝒱₀ L lv :=
  Pipeline.HostSeg.ofOps _ _ _ _ _ (Pipeline.ucRefs τ sig) hostOps1 (fun op h => Pipeline.sub_ucRefs op ((List.forall_iff_forall_mem.mp hostOps1_sub) op h))
    fresh1 (W1 m) R

set_option backward.isDefEq.respectTransparency.types false in
/-- The call: entered from what the first eleven operations left, the buffers behind the windows' arrays dealt to the
    windows and every other unscoped buffer bypassing it; left with the arrays at their final contents put back. -/
def reg0 : Pipeline.RegionSeg (pcfgs (F := F)) adm (dats m) () defs₀ 𝒱₀ L lv 0 where
  win := winFacts₀0
  block_pos := block_pos0
  stage_whole := stage_whole0
  K := PEmpty
  osem := fun k => k.elim
  ho := Pipeline.OwnSemFacts.none _
  hbody c := (body_obligation m c).loose
  hwaits := Pipeline.hwaits_of_owed_zero _ _ _ _ L lv 0 fun _ _ => rfl
  pre c := iprop(StableHlo.held (c : Thread nD τ) (Pipeline.ucRefs τ sig) (StableHlo.after hostOps0 (V₀ m c)) ∗ R c)
  post c := iprop(StableHlo.held (c : Thread nD τ) (Pipeline.ucRefs τ sig) (W1 m c) ∗ R c)
  X c := iprop(emp)
  Y c := iprop(emp)
  Z c := Pipeline.unscopedRest (Ix := Unit) (Name := ℕ) (U := UR sig nD τ) (Lvl := ℕ) spec0 c (V m c)
  hentry c := by
    rw [show StableHlo.held (c : Thread nD τ) (Pipeline.ucRefs τ sig) (StableHlo.after hostOps0 (V₀ m c)) = unscopedBufs c (V m c) from (Pipeline.unscopedBufs_held c _).symm,
      Pipeline.unscopedBufs_split₀ cfgs 0 winFacts₀0.arr_unscoped c (V m c)]
    iintro ⟨⟨⟨Ha, Hrest⟩, HO⟩, -, -⟩
    ihave Ha' := (arrays_of_arrBufs m c (V m c) ((dats m 0 c).arrAt · 0) (fun w => A_eq m c w)) $$ Ha
    imodintro
    isplitl [Ha']; · iexact Ha'
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact Hrest
  hin c := by
    rw [show (dats m 0 c).Φ 0 = Pipeline.scopedRest (Ix := Unit) (Name := ℕ) (U := UR sig nD τ) (Lvl := ℕ) (Val := Elt F) spec0 c from rfl]
    iintro ⟨-, -, Hr⟩; iexact Hr
  hout c := by
    rw [Pipeline.ownSems0_none, show (dats m 0 c).Φ (Fin.last cfg0.N) = Pipeline.scopedRest (Ix := Unit) (Name := ℕ) (U := UR sig nD τ) (Lvl := ℕ) (Val := Elt F) spec0 c from rfl]
    iintro Hr
    isplitr; · iempintro
    isplitr; · iempintro
    iexact Hr
  hexit c := by
    rw [show StableHlo.held (c : Thread nD τ) (Pipeline.ucRefs τ sig) (W1 m c) = unscopedBufs c (fun b => W1 m c (Proc.devRef .tc b)) from (Pipeline.unscopedBufs_held c _).symm,
      Pipeline.unscopedBufs_split₀ cfgs 0 winFacts₀0.arr_unscoped c (fun b => W1 m c (Proc.devRef .tc b)),
      unscopedRest0_eq c (fun b => W1 m c (Proc.devRef .tc b)), unscopedRest0_eq c (V m c)]
    simp only [W1_of_ne m c _ (by decide : main_arg1 ≠ main_v9), W1_of_ne m c _ (by decide : main_v0 ≠ main_v9), W1_of_ne m c _ (by decide : main_cst ≠ main_v9), W1_of_ne m c _ (by decide : main_v1 ≠ main_v9), W1_of_ne m c _ (by decide : main_cst_0 ≠ main_v9), W1_of_ne m c _ (by decide : main_v2 ≠ main_v9), W1_of_ne m c _ (by decide : main_v10 ≠ main_v9), W1_of_ne m c _ (by decide : main_cst_1 ≠ main_v9), W1_of_ne m c _ (by decide : main_v11 ≠ main_v9)]
    iintro ⟨Ha, HO, -, Hrest⟩
    ihave Ha' := (arrBufs_of_arrays m c (fun b => W1 m c (Proc.devRef .tc b)) ((dats m 0 c).arrAt · cfg0.N) (fun w => arrAt_final m c w)) $$ Ha
    imodintro
    isplitr [HO]
    · isplitl [Ha']; · iexact Ha'
      iexact Hrest
    · unfold Pipeline.Dat.owesAt Pipeline.owesWithin
      icases HO with ⟨%W, -, HO⟩; iexists W; iexact HO

/-- @main as the list of the three. -/
abbrev segs : List (Pipeline.Seg (pcfgs (F := F)) adm (dats m) () defs₀ 𝒱₀ L lv) := [.host (seg0 m), .region (reg0 m), .host (seg1 m)]

/-- The launch element: the pipeline library's, at the staging cells. -/
def u₀ : UR sig nD τ := initOf (Pipeline.cells cfgs cellOf_inj) (Pipeline.launchToks cfgs cellOf_inj)

/-- Core `c`'s buffers at the end: the last three operations applied to what the call left. -/
abbrev Wend (c : Dev nD) : Valuation τ sig (Elt F) := StableHlo.after hostOps1 (W1 m c)

set_option backward.isDefEq.respectTransparency.types false in
/-- At the compiled mesh, for any values, from any memory with zero counters: every weakly fair execution of @main on the
    TensorCores terminates, and in every final state every unscoped buffer holds what the last host operations leave of the
    contents at the call's exit. -/
theorem run_main : θ_run defs (onTc (τ := τ) (main (F := F))) ⟨m, fun _ => 0, ρ⟩
    (fun r => ∀ c : Dev nD, ∀ b ∈ (Finset.univ.filter fun b : Ref sig .tc => ¬ b.isScoped),
      r.2.mem ((c : Thread nD τ).loc b) = Wend m c (Proc.devRef .tc b)) :=
  Pipeline.θ_run_regions_kit (pcfgs (F := F)) adm (dats m) () cellOf_inj EP defs₀ 𝒱₀ L lv m ρ main (segs m)
    (fun c Q => by rw [main_segs adm (dats m) () 𝒱₀ L lv (seg0 m) (seg1 m) (reg0 m) rfl rfl c])
    (by simp only [Pipeline.Seg.pipes_host, Pipeline.Seg.pipes_region, Pipeline.Seg.pipes_nil]; decide) (O₀ := 0) (hL := fun _ _ => rfl) (G := fun _ => iprop(emp)) (u₀ := u₀)
    (hu₀ := by
      unfold u₀
      iintro Hu
      imodintro
      isplitl [Hu]; · iapply (show (ownU _ : sProp 𝕄) ⊢ BI.own (emb₁ (initOf (Pipeline.cells cfgs cellOf_inj) (Pipeline.launchToks cfgs cellOf_inj))) from .rfl); iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V₀ m c) ∗ R c))
    (Tₙ := fun c => StableHlo.held (c : Thread nD τ) (Pipeline.ucRefs τ sig) (Wend m c))
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (V₀ m c) from Pipeline.unscopedBufs_held c (V₀ m c)]
      iintro ⟨⟨Hh, -, HO, -, -, -⟩, -⟩
      imodintro
      isplitl [Hh]; · iexact Hh
      iexists ∅; iexact HO)
    (QY := fun c s => ∀ b ∈ (Finset.univ.filter fun b : Ref sig .tc => ¬ b.isScoped), s.mem ((c : Thread nD τ).loc b) = Wend m c (Proc.devRef .tc b))
    (hfin := fun c s' => by
      rw [show StableHlo.held (c : Thread nD τ) (Pipeline.ucRefs τ sig) (Wend m c) = unscopedBufs c (fun b => Wend m c (Proc.devRef .tc b)) from (Pipeline.unscopedBufs_held c _).symm]
      unfold unscopedBufs
      iintro ⟨HU, HSI⟩
      imodintro
      iapply (pointsTo_read_all (Finset.univ.filter fun b : Ref sig .tc => ¬ b.isScoped) (fun b => (c : Thread nD τ).loc b) (fun b => Wend m c (Proc.devRef .tc b)) s')
      isplitl [HU] <;> iassumption)
    (hQ := fun _ h => h)

/-! ## The arguments at the end -/

/-- No host operation before the call writes an argument array; -/
theorem V_arg0 (c : Dev nD) : V m c main_arg0 = m ((c : Thread nD τ).loc main_arg0) := by
  dsimp only [V, hostOps0]
  after_results
theorem V_arg1 (c : Dev nD) : V m c main_arg1 = m ((c : Thread nD τ).loc main_arg1) := by
  dsimp only [V, hostOps0]
  after_results

/-- none after it does, and the call leaves them as it found them: at the end they hold their launch contents. -/
theorem Wend_arg0 (c : Dev nD) : Wend m c (Proc.devRef .tc main_arg0) = m ((c : Thread nD τ).loc main_arg0) := by
  have h : Wend m c (Proc.devRef .tc main_arg0) = W1 m c (Proc.devRef .tc main_arg0) := by
    dsimp only [Wend, hostOps1]
    after_results
  rw [h, W1_of_ne m c _ (by decide)]
  exact V_arg0 m c
theorem Wend_arg1 (c : Dev nD) : Wend m c (Proc.devRef .tc main_arg1) = m ((c : Thread nD τ).loc main_arg1) := by
  have h : Wend m c (Proc.devRef .tc main_arg1) = W1 m c (Proc.devRef .tc main_arg1) := by
    dsimp only [Wend, hostOps1]
    after_results
  rw [h, W1_of_ne m c _ (by decide)]
  exact V_arg1 m c

/-- THE FRAME: every weakly fair execution terminates, nothing faulting, with both argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨(h c main_arg0 (by decide)).trans (Wend_arg0 m c), (h c main_arg1 (by decide)).trans (Wend_arg1 m c)⟩)
    (run_main m ρ)

end Cert.KernelIdeal.Hand

end
-- ==== Proof.PieceValue.lean ====
/-
  What the body's two runs leave in the output's one-cell staging buffer, in terms of the body's arithmetic: at the first
  point the sum of the tile's pair losses added to the zero the point has just stored, at a later point added to the
  running contents; and hence the recursion of the running scalar over the grid positions.
-/
import proofs.«149557_j76081050681843_1_alg».proof.Proof.FrameKernelIdeal.Body
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ)

/-- The stores' offsets are zero on both axes. -/
theorem offsets_zero : (![0, 0] : Fin 2 → Nat) = fun _ => 0 := funext fun a => by
  match a with
  | ⟨0, _⟩ => rfl
  | ⟨1, _⟩ => rfl

/-! ## The found pieces -/

/-- AT A LATER POINT the body's one store into the output's cell is the tile's sum added to the running contents `xo8`,
    which the body has loaded from the cell. -/
theorem out0_B_8_eq (c : Dev nD) (i : grid0.Coords) (arg2 : Memref sig .tc .vmem S1024x256 .f32) (harg2 : arg2.IsWhole) (arg3 : Memref sig .tc .vmem S1024x256 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1 .f32) (harg6 : arg6.IsWhole) (arg7 : Memref sig .tc .vmem S1x1024 .f32) (harg7 : arg7.IsWhole) (arg8 : Memref sig .tc .vmem S1024x1 .i32) (harg8 : arg8.IsWhole) (arg9 : Memref sig .tc .vmem S1x1024 .i32) (harg9 : arg9.IsWhole) (arg10 : Memref sig .tc .vmem S1x1 .f32) (harg10 : arg10.IsWhole) (hc0 : ¬cond0_0 i)
    (x0 : Vec F S1024x256 .f32) (x1 : Vec F S1024x256 .f32) (x2 : Vec F S1024x1 .f32) (x3 : Vec F S1x1024 .f32) (x4 : Vec F S1024x1 .f32) (x5 : Vec F S1x1024 .f32) (x6 : Vec F S1024x1 .i32) (x7 : Vec F S1x1024 .i32) (xo8 : Vec F S1x1 .f32) :
    out0_B_8 c i arg2 harg2 arg3 harg3 arg4 harg4 arg5 harg5 arg6 harg6 arg7 harg7 arg8 harg8 arg9 harg9 arg10 harg10 hc0 x0 x1 x2 x3 x4 x5 x6 x7 xo8 = k0_pay1 (k0_pay3 x0 x1 x2 x3 x4 x5) (k0_pay4 x6) x7 xo8 := by
  unfold out0_B_8
  rw [View.read_writes_eq_canon _ _ _ (cover0_B_8 c i arg2 harg2 arg3 harg3 arg4 harg4 arg5 harg5 arg6 harg6 arg7 harg7 arg8 harg8 arg9 harg9 arg10 harg10 hc0 x0 x1 x2 x3 x4 x5 x6 x7 xo8)]
  unfold kernelRun0_B
  dsimp only
  sl_unfold_words
  rw [View.canon_unit_zero offsets_zero]
  simp only [View.readAt_eq_ld, harg2.read_unread, harg3.read_unread, harg4.read_unread, harg5.read_unread, harg6.read_unread,
    harg7.read_unread, harg8.read_unread, harg9.read_unread, harg10.read_unread,
    View.ld_unit_zero (S := S1024x256) offsets_zero, View.ld_unit_zero (S := S1024x1) offsets_zero,
    View.ld_unit_zero (S := S1x1024) offsets_zero, View.ld_unit_zero (S := S1x1) offsets_zero]

/-- AT THE FIRST POINT the body stores the zero vector into the cell, loads the cell back, and stores the tile's sum added
    to what it loaded: the later store covers the cell, and the load between the two reads the zero vector. -/
theorem out0_A_8_eq (c : Dev nD) (i : grid0.Coords) (arg2 : Memref sig .tc .vmem S1024x256 .f32) (harg2 : arg2.IsWhole) (arg3 : Memref sig .tc .vmem S1024x256 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1 .f32) (harg6 : arg6.IsWhole) (arg7 : Memref sig .tc .vmem S1x1024 .f32) (harg7 : arg7.IsWhole) (arg8 : Memref sig .tc .vmem S1024x1 .i32) (harg8 : arg8.IsWhole) (arg9 : Memref sig .tc .vmem S1x1024 .i32) (harg9 : arg9.IsWhole) (arg10 : Memref sig .tc .vmem S1x1 .f32) (harg10 : arg10.IsWhole) (hc0 : cond0_0 i)
    (x0 : Vec F S1024x256 .f32) (x1 : Vec F S1024x256 .f32) (x2 : Vec F S1024x1 .f32) (x3 : Vec F S1x1024 .f32) (x4 : Vec F S1024x1 .f32) (x5 : Vec F S1x1024 .f32) (x6 : Vec F S1024x1 .i32) (x7 : Vec F S1x1024 .i32) :
    out0_A_8 c i arg2 harg2 arg3 harg3 arg4 harg4 arg5 harg5 arg6 harg6 arg7 harg7 arg8 harg8 arg9 harg9 arg10 harg10 hc0 x0 x1 x2 x3 x4 x5 x6 x7 = k0_pay1 (k0_pay3 x0 x1 x2 x3 x4 x5) (k0_pay4 x6) x7 (k0_pay2 (F := F)) := by
  unfold out0_A_8
  rw [View.read_writes_eq_canon _ _ _ (cover0_A_8 c i arg2 harg2 arg3 harg3 arg4 harg4 arg5 harg5 arg6 harg6 arg7 harg7 arg8 harg8 arg9 harg9 arg10 harg10 hc0 x0 x1 x2 x3 x4 x5 x6 x7)]
  unfold kernelRun0_A
  dsimp only
  sl_unfold_words
  rw [View.canon_cons_unit_zero (S := S1x1) offsets_zero]
  simp only [View.readAt_eq_ld, harg2.read_unread, harg3.read_unread, harg4.read_unread, harg5.read_unread, harg6.read_unread,
    harg7.read_unread, harg8.read_unread, harg9.read_unread,
    View.ld_unit_zero (S := S1024x256) offsets_zero, View.ld_unit_zero (S := S1024x1) offsets_zero,
    View.ld_unit_zero (S := S1x1024) offsets_zero, View.readCov_unit_zero (S := S1x1) _ offsets_zero]

/-! ## The running scalar's recursion -/

/-- After the first grid position the cell holds the first tile's sum added to zero. -/
theorem outsAt0_zero (c : Dev nD) (hn : 0 < cfg0.N) :
    outsAt0 m c 0 hn = k0_pay1 (k0_pay3 (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩)) (k0_pay4 (iblk m c 6 ⟨0, hn⟩)) (iblk m c 7 ⟨0, hn⟩) (k0_pay2 (F := F)) :=
  (outsAt0_A m c ⟨0, hn⟩ (Nat.zero_mod _)).trans
    (out0_A_8_eq c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩))

/-- After position `n + 1` the cell holds that position's tile's sum added to what position `n` left: the grid has 64
    positions, so no later position is a first one. -/
theorem outsAt0_succ (c : Dev nD) (n : ℕ) (hn : n + 1 < cfg0.N) :
    outsAt0 m c (n + 1) hn = k0_pay1 (k0_pay3 (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩)) (k0_pay4 (iblk m c 6 ⟨n + 1, hn⟩)) (iblk m c 7 ⟨n + 1, hn⟩) (outsAt0 m c n (Nat.lt_of_succ_lt hn)) := by
  have hN : n + 1 < 64 := lt_of_lt_of_eq hn (show cfg0.N = 64 from N_0)
  have h0 : ¬(n + 1) % 64 = 0 := by omega
  exact (outsAt0_B m c ⟨n + 1, hn⟩ h0).trans
    (out0_B_8_eq c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (outsAt0 m c n (Nat.lt_of_succ_lt hn)))

end Cert.KernelIdeal.Hand

end
-- ==== Proof.BlockReads.lean ====
/-
  The eight input blocks of a grid point, read at an index.

  The grid has 8 × 8 points; point t has block-row t / 8 and block-column t % 8. The rows x (8192 × 256), their
  squared norms and entry sums (one number per row) and the labels (one word per row) reach the point as blocks of
  1024: the two row blocks are rows 1024 · (t / 8) + p and rows 1024 · (t % 8) + q of x; the squared norms, the entry
  sums and the labels come once as a column [8192, 1] cut at block-row t / 8 and once as a row [1, 8192] cut at
  block-column t % 8. An entry of a block sits in its array, on each axis, at the block index times the block size
  plus its own coordinate; a column or a row of 8192 entries is the vector of 8192 entries with the same row-major
  position. So every block entry is an entry of x, of the squared norms, of the entry sums or of the labels at row
  1024 · (t / 8) + p or at row 1024 · (t % 8) + q. The squared norms and the entry sums are the host's two row sums
  of x · x and of x; they are named here and never opened.
-/
import proofs.«149557_j76081050681843_1_alg».proof.Proof.FrameKernelIdeal.Base
import Idealize.ShloMosaic.Lib.ValueIdx
import Idealize.ShloMosaic.Lib.Pipeline.Value
import Idealize.ShloMosaic.Lib.StableHlo.Run

noncomputable section

namespace Cert.Contrastive.Blocks

open Idealize.ShloMosaic Idealize.ShloMosaic.TcCoe Idealize.ShloMosaic.ValueIdx Idealize.SL.Sem
open Cert.KernelIdeal Cert.KernelIdeal.Gen Cert.KernelIdeal.Hand

variable (m : (ℓ : Loc nD τ sig) → Buf (Elt Ideal) ℓ) (c : Dev nD) (t : Fin cfg0.N)

/-! ## The arrays and the blocks, each at its literal type -/

/-- The rows. -/
abbrev xarr : Vec Ideal S8192x256 .f32 := m ((c : Thread nD τ).loc main_arg0)
/-- The labels. -/
abbrev tgarr : Vec Ideal S8192 .i32 := m ((c : Thread nD τ).loc main_arg1)
/-- The squared norms: the sum along each row of x · x, from the zero word. -/
def sqv : Vec Ideal S8192 .f32 := Host.reduceAdd (F := Ideal) (mulf (xarr m c) (xarr m c)) (constant (F := Ideal) S_ .f32 0x00000000#32) reducesTo_S8192x256_S8192_d1 h_S_
/-- The entry sums: the sum along each row of x, from the zero word. -/
def ssv : Vec Ideal S8192 .f32 := Host.reduceAdd (F := Ideal) (xarr m c) (constant (F := Ideal) S_ .f32 0x00000000#32) reducesTo_S8192x256_S8192_d1 h_S_

/-- The row block of x at block-row t / 8. -/
abbrev blk0 : Vec Ideal S1024x256 .f32 := iblk m c 0 t
/-- The row block of x at block-row t % 8. -/
abbrev blk1 : Vec Ideal S1024x256 .f32 := iblk m c 1 t
/-- The squared norms, column block t / 8. -/
abbrev blk2 : Vec Ideal S1024x1 .f32 := iblk m c 2 t
/-- The squared norms, row block t % 8. -/
abbrev blk3 : Vec Ideal S1x1024 .f32 := iblk m c 3 t
/-- The entry sums, column block t / 8. -/
abbrev blk4 : Vec Ideal S1024x1 .f32 := iblk m c 4 t
/-- The entry sums, row block t % 8. -/
abbrev blk5 : Vec Ideal S1x1024 .f32 := iblk m c 5 t
/-- The labels, column block t / 8. -/
abbrev blk6 : Vec Ideal S1024x1 .i32 := iblk m c 6 t
/-- The labels, row block t % 8. -/
abbrev blk7 : Vec Ideal S1x1024 .i32 := iblk m c 7 t

/-- The row of x that entry p of block-row t / 8 is. -/
abbrev rowOf (p : Fin 1024) : Fin 8192 := ⟨1024 * (t.val / 8) + p.val, by have := t.isLt; have : cfg0.N = 64 := N_0; omega⟩
/-- The row of x that entry q of block-row t % 8 is. -/
abbrev colOf (q : Fin 1024) : Fin 8192 := ⟨1024 * (t.val % 8) + q.val, by omega⟩

/-! ## The block indices, decided over the 64 points -/

/-- Windows 0, 2, 4, 6 sit at block (t / 8, 0); window 1 at block (t % 8, 0); windows 3, 5, 7 at block (0, t % 8). -/
theorem idx_facts : ∀ t : Fin cfg0.N,
    win0_0.index t (0 : Fin 2) = t.val / 8 ∧ win0_0.index t (1 : Fin 2) = 0
    ∧ win0_1.index t (0 : Fin 2) = t.val % 8 ∧ win0_1.index t (1 : Fin 2) = 0
    ∧ win0_2.index t (0 : Fin 2) = t.val / 8 ∧ win0_2.index t (1 : Fin 2) = 0
    ∧ win0_3.index t (0 : Fin 2) = 0 ∧ win0_3.index t (1 : Fin 2) = t.val % 8
    ∧ win0_4.index t (0 : Fin 2) = t.val / 8 ∧ win0_4.index t (1 : Fin 2) = 0
    ∧ win0_5.index t (0 : Fin 2) = 0 ∧ win0_5.index t (1 : Fin 2) = t.val % 8
    ∧ win0_6.index t (0 : Fin 2) = t.val / 8 ∧ win0_6.index t (1 : Fin 2) = 0
    ∧ win0_7.index t (0 : Fin 2) = 0 ∧ win0_7.index t (1 : Fin 2) = t.val % 8 :=
  (by decide +kernel : ∀ t : Fin grid0.N, _)

/-! ## The arrays when the region is entered -/

/-- No host operation writes the rows. -/
theorem V_arg0 : (V m c main_arg0 : S8192x256.Idx → EReal) = xarr m c := by
  dsimp only [V, hostOps0]
  after_results

/-- No host operation writes the labels. -/
theorem V_arg1 : (V m c main_arg1 : S8192.Idx → BitVec 32) = tgarr m c := by
  dsimp only [V, hostOps0]
  after_results

/-- The squared norms as a column. -/
theorem V_v3 : (V m c main_v3 : S8192x1.Idx → EReal) = shapeCast S8192x1 (sqv m c) shapeCasts_S8192_S8192x1 := by
  dsimp only [V, hostOps0]
  after_results
  rfl

/-- The squared norms as a row. -/
theorem V_v4 : (V m c main_v4 : S1x8192.Idx → EReal) = shapeCast S1x8192 (sqv m c) shapeCasts_S8192_S1x8192 := by
  dsimp only [V, hostOps0]
  after_results
  rfl

/-- The entry sums as a column. -/
theorem V_v5 : (V m c main_v5 : S8192x1.Idx → EReal) = shapeCast S8192x1 (ssv m c) shapeCasts_S8192_S8192x1 := by
  dsimp only [V, hostOps0]
  after_results
  rfl

/-- The entry sums as a row. -/
theorem V_v6 : (V m c main_v6 : S1x8192.Idx → EReal) = shapeCast S1x8192 (ssv m c) shapeCasts_S8192_S1x8192 := by
  dsimp only [V, hostOps0]
  after_results
  rfl

/-- The labels as a column. -/
theorem V_v7 : (V m c main_v7 : S8192x1.Idx → BitVec 32) = shapeCast S8192x1 (tgarr m c) shapeCasts_S8192_S8192x1 := by
  dsimp only [V, hostOps0]
  after_results
  rfl

/-- The labels as a row. -/
theorem V_v8 : (V m c main_v8 : S1x8192.Idx → BitVec 32) = shapeCast S1x8192 (tgarr m c) shapeCasts_S8192_S1x8192 := by
  dsimp only [V, hostOps0]
  after_results
  rfl

/-! ## A column and a row of 8192 entries, read at an index -/

section Casts
variable {α : Type}

/-- The column [8192, 1] of a vector reads, at (r, 0), the vector at r. -/
theorem col_apply (v : S8192.Idx → α) (j : S8192x1.Idx) (r : Fin 8192) (h0 : (j 0).val = r.val) :
    shapeCast S8192x1 v shapeCasts_S8192_S8192x1 j = v (ix1 r) :=
  shapeCast_apply v shapeCasts_S8192_S8192x1 j (ix1 r) (by
    have h1 : (j 1).val = 0 := by have := idx2_lt1 j; omega
    rw [Shape.rowMajor_val_one, Shape.rowMajor_val_two]
    show r.val = (j 0).val * 1 + (j 1).val
    rw [h0, h1, Nat.mul_one, Nat.add_zero])

/-- The row [1, 8192] of a vector reads, at (0, r), the vector at r. -/
theorem row_apply (v : S8192.Idx → α) (j : S1x8192.Idx) (r : Fin 8192) (h1 : (j 1).val = r.val) :
    shapeCast S1x8192 v shapeCasts_S8192_S1x8192 j = v (ix1 r) :=
  shapeCast_apply v shapeCasts_S8192_S1x8192 j (ix1 r) (by
    have h0 : (j 0).val = 0 := by have := idx2_lt0 j; omega
    rw [Shape.rowMajor_val_one, Shape.rowMajor_val_two]
    show r.val = (j 0).val * 8192 + (j 1).val
    rw [h0, h1, Nat.zero_mul, Nat.zero_add])

end Casts

/-! ## The blocks at an index -/

/-- Entry (p, k) of the first row block is x at row 1024 · (t / 8) + p, column k. -/
theorem blk0_at (p : Fin 1024) (k : Fin 256) : blk0 m c t (ix2 p k) = xarr m c (ix2 (rowOf t p) k) := by
  obtain ⟨e0, e1, -⟩ := idx_facts t
  show ((cfg0.win 0).blk t).view.read (Elt Ideal) (V m c main_arg0) (ix2 p k) = _
  rw [View.read_apply]
  show (V m c main_arg0 : S8192x256.Idx → EReal) (((cfg0.win 0).blk t).view.emb (ix2 p k)) = _
  rw [V_arg0]
  refine congrArg (xarr m c) (funext fun a => Fin.ext ?_)
  match a with
  | ⟨0, _⟩ => show win0_0.index t (0 : Fin 2) * 1024 + 1 * p.val = 1024 * (t.val / 8) + p.val; rw [e0]; omega
  | ⟨1, _⟩ => show win0_0.index t (1 : Fin 2) * 256 + 1 * k.val = k.val; rw [e1]; omega

/-- Entry (q, k) of the second row block is x at row 1024 · (t % 8) + q, column k. -/
theorem blk1_at (q : Fin 1024) (k : Fin 256) : blk1 m c t (ix2 q k) = xarr m c (ix2 (colOf t q) k) := by
  obtain ⟨-, -, e0, e1, -⟩ := idx_facts t
  show ((cfg0.win 1).blk t).view.read (Elt Ideal) (V m c main_arg0) (ix2 q k) = _
  rw [View.read_apply]
  show (V m c main_arg0 : S8192x256.Idx → EReal) (((cfg0.win 1).blk t).view.emb (ix2 q k)) = _
  rw [V_arg0]
  refine congrArg (xarr m c) (funext fun a => Fin.ext ?_)
  match a with
  | ⟨0, _⟩ => show win0_1.index t (0 : Fin 2) * 1024 + 1 * q.val = 1024 * (t.val % 8) + q.val; rw [e0]; omega
  | ⟨1, _⟩ => show win0_1.index t (1 : Fin 2) * 256 + 1 * k.val = k.val; rw [e1]; omega

/-- Entry p of the squared norms' column block is the squared norm of row 1024 · (t / 8) + p. -/
theorem blk2_at (p : Fin 1024) : blk2 m c t (ix2 p 0) = sqv m c (ix1 (rowOf t p)) := by
  obtain ⟨-, -, -, -, e0, -⟩ := idx_facts t
  show ((cfg0.win 2).blk t).view.read (Elt Ideal) (V m c main_v3) (ix2 p (0 : Fin 1)) = _
  rw [View.read_apply]
  show (V m c main_v3 : S8192x1.Idx → EReal) (((cfg0.win 2).blk t).view.emb (ix2 p (0 : Fin 1))) = _
  rw [V_v3]
  refine col_apply (sqv m c) _ (rowOf t p) ?_
  show win0_2.index t (0 : Fin 2) * 1024 + 1 * p.val = 1024 * (t.val / 8) + p.val
  rw [e0]; omega

/-- Entry q of the squared norms' row block is the squared norm of row 1024 · (t % 8) + q. -/
theorem blk3_at (q : Fin 1024) : blk3 m c t (ix2 0 q) = sqv m c (ix1 (colOf t q)) := by
  obtain ⟨-, -, -, -, -, -, -, e1, -⟩ := idx_facts t
  show ((cfg0.win 3).blk t).view.read (Elt Ideal) (V m c main_v4) (ix2 (0 : Fin 1) q) = _
  rw [View.read_apply]
  show (V m c main_v4 : S1x8192.Idx → EReal) (((cfg0.win 3).blk t).view.emb (ix2 (0 : Fin 1) q)) = _
  rw [V_v4]
  refine row_apply (sqv m c) _ (colOf t q) ?_
  show win0_3.index t (1 : Fin 2) * 1024 + 1 * q.val = 1024 * (t.val % 8) + q.val
  rw [e1]; omega

/-- Entry p of the entry sums' column block is the entry sum of row 1024 · (t / 8) + p. -/
theorem blk4_at (p : Fin 1024) : blk4 m c t (ix2 p 0) = ssv m c (ix1 (rowOf t p)) := by
  obtain ⟨-, -, -, -, -, -, -, -, e0, -⟩ := idx_facts t
  show ((cfg0.win 4).blk t).view.read (Elt Ideal) (V m c main_v5) (ix2 p (0 : Fin 1)) = _
  rw [View.read_apply]
  show (V m c main_v5 : S8192x1.Idx → EReal) (((cfg0.win 4).blk t).view.emb (ix2 p (0 : Fin 1))) = _
  rw [V_v5]
  refine col_apply (ssv m c) _ (rowOf t p) ?_
  show win0_4.index t (0 : Fin 2) * 1024 + 1 * p.val = 1024 * (t.val / 8) + p.val
  rw [e0]; omega

/-- Entry q of the entry sums' row block is the entry sum of row 1024 · (t % 8) + q. -/
theorem blk5_at (q : Fin 1024) : blk5 m c t (ix2 0 q) = ssv m c (ix1 (colOf t q)) := by
  obtain ⟨-, -, -, -, -, -, -, -, -, -, -, e1, -⟩ := idx_facts t
  show ((cfg0.win 5).blk t).view.read (Elt Ideal) (V m c main_v6) (ix2 (0 : Fin 1) q) = _
  rw [View.read_apply]
  show (V m c main_v6 : S1x8192.Idx → EReal) (((cfg0.win 5).blk t).view.emb (ix2 (0 : Fin 1) q)) = _
  rw [V_v6]
  refine row_apply (ssv m c) _ (colOf t q) ?_
  show win0_5.index t (1 : Fin 2) * 1024 + 1 * q.val = 1024 * (t.val % 8) + q.val
  rw [e1]; omega

/-- Entry p of the labels' column block is the label of row 1024 · (t / 8) + p. -/
theorem blk6_at (p : Fin 1024) : blk6 m c t (ix2 p 0) = tgarr m c (ix1 (rowOf t p)) := by
  obtain ⟨-, -, -, -, -, -, -, -, -, -, -, -, e0, -⟩ := idx_facts t
  show ((cfg0.win 6).blk t).view.read (Elt Ideal) (V m c main_v7) (ix2 p (0 : Fin 1)) = _
  rw [View.read_apply]
  show (V m c main_v7 : S8192x1.Idx → BitVec 32) (((cfg0.win 6).blk t).view.emb (ix2 p (0 : Fin 1))) = _
  rw [V_v7]
  refine col_apply (tgarr m c) _ (rowOf t p) ?_
  show win0_6.index t (0 : Fin 2) * 1024 + 1 * p.val = 1024 * (t.val / 8) + p.val
  rw [e0]; omega

/-- Entry q of the labels' row block is the label of row 1024 · (t % 8) + q. -/
theorem blk7_at (q : Fin 1024) : blk7 m c t (ix2 0 q) = tgarr m c (ix1 (colOf t q)) := by
  obtain ⟨-, -, -, -, -, -, -, -, -, -, -, -, -, -, -, e1⟩ := idx_facts t
  show ((cfg0.win 7).blk t).view.read (Elt Ideal) (V m c main_v8) (ix2 (0 : Fin 1) q) = _
  rw [View.read_apply]
  show (V m c main_v8 : S1x8192.Idx → BitVec 32) (((cfg0.win 7).blk t).view.emb (ix2 (0 : Fin 1) q)) = _
  rw [V_v8]
  refine row_apply (tgarr m c) _ (colOf t q) ?_
  show win0_7.index t (1 : Fin 2) * 1024 + 1 * q.val = 1024 * (t.val % 8) + q.val
  rw [e1]; omega

end Cert.Contrastive.Blocks

end
-- ==== Proof.Spec.lean ====
/-
  The contrastive loss as one function of the argument arrays, over the extended reals.

  For rows `x_i` (i < 8192, 256 entries each) with squared norms `sq i`, entry sums `ss i` and integer labels `tg i`:

      d2 i j   = ((sq i + sq j) - 2 · ⟨x_i, x_j⟩) + 2ε · (ss i - ss j) + 256 ε²          (the three constants as f32 words)
      loss i j = d2 i j                    if tg i = tg j
                 max (1/2 - d2 i j) 0      otherwise
      total    = (0 + Σ_i Σ_j loss i j) / 8192

  `sq` and `ss` are parameters here: both programs compute them by the same host sums of the same array, so the
  comparison never opens them.
-/
import Idealize.ShloMosaic.PureOps.Ideal
import Idealize.ShloMosaic.Lib.ValueIdx

noncomputable section

namespace Cert.Contrastive

open Idealize.ShloMosaic Idealize.ShloMosaic.ValueIdx

/-- The f32 words the two programs share: 2, 2·10⁻⁶, 2.56·10⁻¹⁰, 1/2, 0, 8192. Never evaluated. -/
abbrev cTwo : EReal := Ideal.ofBits .f32 0x40000000#32
abbrev cTwoEps : EReal := Ideal.ofBits .f32 0x360637BD#32
abbrev cDEps2 : EReal := Ideal.ofBits .f32 0x2F8CBCCC#32
abbrev cHalf : EReal := Ideal.ofBits .f32 0x3F000000#32
abbrev cZero : EReal := Ideal.ofBits .f32 0x00000000#32
abbrev cN : EReal := Ideal.ofBits .f32 0x46000000#32

/-- The squared shifted distance of rows `i` and `j`, expanded through the Gram entry. -/
def d2 (x : (⟨2, ![8192, 256]⟩ : Shape).Idx → EReal) (sq ss : (⟨1, ![8192]⟩ : Shape).Idx → EReal) (i j : Fin 8192) : EReal :=
  ((sq (ix1 i) + sq (ix1 j)) - cTwo * (∑ k : Fin 256, x (ix2 i k) * x (ix2 j k)))
    + cTwoEps * (ss (ix1 i) - ss (ix1 j)) + cDEps2

/-- One pair's loss: the distance for equal labels, the hinge of the margin otherwise. -/
def loss (x : (⟨2, ![8192, 256]⟩ : Shape).Idx → EReal) (sq ss : (⟨1, ![8192]⟩ : Shape).Idx → EReal)
    (tg : (⟨1, ![8192]⟩ : Shape).Idx → BitVec 32) (i j : Fin 8192) : EReal :=
  Scalar.select (IntOp.cmpi .eq (tg (ix1 i)) (tg (ix1 j))) (d2 x sq ss i j) (max (cHalf - d2 x sq ss i j) cZero)

/-- The mean over the rows of the summed pair losses. -/
def total (x : (⟨2, ![8192, 256]⟩ : Shape).Idx → EReal) (sq ss : (⟨1, ![8192]⟩ : Shape).Idx → EReal)
    (tg : (⟨1, ![8192]⟩ : Shape).Idx → BitVec 32) : EReal :=
  Ideal.div (cZero + ∑ i : Fin 8192, ∑ j : Fin 8192, loss x sq ss tg i j) cN

end Cert.Contrastive

end
-- ==== Proof.StepValue.lean ====
/-
  One grid point of the kernel, read at an index.

  A point takes a 1024×256 block `x0` of rows, a 1024×256 block `x1` of rows, the column and row blocks `b2`, `b3` of
  squared norms, `b4`, `b5` of entry sums and `b6`, `b7` of labels. Its tile of squared shifted distances is

      d2B p q = ((b2 p + b3 q) - 2 · Σ_k x0 p k · x1 q k) + 2ε · (b4 p - b5 q) + 256 ε²,

  its tile of pair losses is `d2B p q` where the labels agree and `max (1/2 - d2B p q) 0` where they do not, and the
  point adds the tile's sum, taken along the lanes and then along the sublanes, to the running scalar.

  Every operation that is not pointwise has its own lemma at an index written by coordinates: the column and the row
  broadcast, the transpose, the block product into the zero accumulator, the two one-axis sums and the casts between
  a vector and a one-column or one-entry matrix.
-/
import proofs.«149557_j76081050681843_1_alg».proof.Proof.Spec
import proofs.«149557_j76081050681843_1_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

namespace Cert.Contrastive.Step

open Idealize.ShloMosaic Idealize.ShloMosaic.ValueIdx Cert.KernelIdeal Cert.KernelIdeal.Gen Cert.Contrastive

/-! ## The layout operations at an index -/

section Layout
variable {α : Type}

/-- A column `[1024, 1]` broadcast along the lanes reads, at `(p, q)`, the column at `p`. -/
theorem bcastCol_apply (v : S1024x1.Idx → α) (p q : Fin 1024) :
    broadcastTo S1024x1024 v broadcasts_S1024x1_S1024x1024 (ix2 p q) = v (ix2 p (0 : Fin 1)) := by
  refine broadcastTo_apply v broadcasts_S1024x1_S1024x1024 (ix2 p q) (ix2 p (0 : Fin 1)) fun ax => ?_
  match ax with
  | ⟨0, _⟩ => rfl
  | ⟨1, _⟩ => rfl

/-- A row `[1, 1024]` broadcast along the sublanes reads, at `(p, q)`, the row at `q`. -/
theorem bcastRow_apply (v : S1x1024.Idx → α) (p q : Fin 1024) :
    broadcastTo S1024x1024 v broadcasts_S1x1024_S1024x1024 (ix2 p q) = v (ix2 (0 : Fin 1) q) :=
  broadcastTo_1b_ab_apply v broadcasts_S1x1024_S1024x1024 p q

/-- The transposed block reads, at `(k, q)`, the block at `(q, k)`. -/
theorem transp_apply (v : S1024x256.Idx → α) (k : Fin 256) (q : Fin 1024) :
    transpose S256x1024 [1, 0] v transposes_S1024x256_p1_0_S256x1024 (ix2 k q) = v (ix2 q k) :=
  transpose_ix2_apply v transposes_S1024x256_p1_0_S256x1024 k q

/-- A vector `[1024]` cast to a column `[1024, 1]` reads, at `(p, u)`, the vector at `p`. -/
theorem castCol_apply (v : S1024.Idx → α) (p : Fin 1024) (u : Fin 1) :
    shapeCast S1024x1 v shapeCasts_S1024_S1024x1 (ix2 p u) = v (ix1 p) :=
  shapeCast_apply v shapeCasts_S1024_S1024x1 (ix2 p u) (ix1 p) (by
    have hu : u.val = 0 := by omega
    rw [Shape.rowMajor_val_two, Shape.rowMajor_val_one]
    show p.val = p.val * 1 + u.val
    rw [hu, Nat.mul_one, Nat.add_zero])

/-- A one-entry vector cast to a one-entry matrix reads its entry. -/
theorem castOne_apply (v : S1.Idx → α) (y : S1x1.Idx) :
    shapeCast S1x1 v shapeCasts_S1_S1x1 y = v (ix1 (0 : Fin 1)) :=
  shapeCast_apply v shapeCasts_S1_S1x1 y (ix1 (0 : Fin 1)) (by
    have h0 : (y 0).val = 0 := by have := idx2_lt0 y; omega
    have h1 : (y 1).val = 0 := by have := idx2_lt1 y; omega
    rw [Shape.rowMajor_val_two, Shape.rowMajor_val_one]
    show 0 = (y 0).val * 1 + (y 1).val
    rw [h0, h1])

end Layout

/-! ## The two one-axis sums at an index -/

/-- The lane sum of a tile reads, at `p`, the sum of the tile's row `p`. -/
theorem laneSum_apply (src : FVec Ideal S1024x1024 .f32) (hφ : FKind.Formats .f32)
    (hacc : (0x00000000#32 : BitVec 32) = 0x00000000#32) (p : Fin 1024) :
    multiReduction (F := Ideal) .add [1] S1024 src 0x00000000#32 reduces_S1024x1024_S1024 hφ hacc (ix1 p)
      = ∑ q : Fin 1024, src (ix2 p q) := by
  refine (Ideal.multiReduction_add_single src 0x00000000#32 reduces_S1024x1024_S1024 hφ hacc (ix1 p)).trans ?_
  refine Finset.sum_congr rfl fun q _ => ?_
  exact congrArg src (funext fun ax => Fin.ext (by match ax with | ⟨0, _⟩ => rfl | ⟨1, _⟩ => rfl))

/-- The sublane sum of a column reads, at its one index, the sum of the column's entries. -/
theorem sublaneSum_apply (src : FVec Ideal S1024x1 .f32) (hφ : FKind.Formats .f32)
    (hacc : (0x00000000#32 : BitVec 32) = 0x00000000#32) (u : Fin 1) :
    multiReduction (F := Ideal) .add [0] S1 src 0x00000000#32 reduces_S1024x1_S1 hφ hacc (ix1 u)
      = ∑ p : Fin 1024, src (ix2 p u) := by
  refine (Ideal.multiReduction_add_single src 0x00000000#32 reduces_S1024x1_S1 hφ hacc (ix1 u)).trans ?_
  refine Finset.sum_congr rfl fun p _ => ?_
  exact congrArg src (funext fun ax => Fin.ext (by match ax with | ⟨0, _⟩ => rfl | ⟨1, _⟩ => rfl))

/-! ## The block product at an index

The product contracts axis 1 of its left operand with axis 0 of its right one; its contraction index is one coordinate
`k` below 256, the left operand is read at `(p, k)` and the right one at `(k, q)`. -/

/-- The left operand's row is the result's row. -/
theorem gram_lhs_0 (i : S1024x1024.Idx) (c : dot_S1024x256_S256x1024_S1024x1024_1_0_0_1_n_n.contr.Idx) :
    (dot_S1024x256_S256x1024_S1024x1024_1_0_0_1_n_n.lhsIdx i c 0).val = (i 0).val := by
  unfold DotDims.lhsIdx
  rw [dif_neg (show ¬(0 : Fin S1024x256.rank) ∈ dot_S1024x256_S256x1024_S1024x1024_1_0_0_1_n_n.lhsBatch by decide),
    dif_pos (show (0 : Fin S1024x256.rank) ∈ dot_S1024x256_S256x1024_S1024x1024_1_0_0_1_n_n.lhsNonContracting by decide)]
  rfl
/-- The left operand's column is the contraction coordinate. -/
theorem gram_lhs_1 (i : S1024x1024.Idx) (c : dot_S1024x256_S256x1024_S1024x1024_1_0_0_1_n_n.contr.Idx) :
    (dot_S1024x256_S256x1024_S1024x1024_1_0_0_1_n_n.lhsIdx i c 1).val = (c ⟨0, by decide⟩).val :=
  dot_S1024x256_S256x1024_S1024x1024_1_0_0_1_n_n.lhsIdx_val_of_single rfl i c
/-- The right operand's row is the contraction coordinate. -/
theorem gram_rhs_0 (i : S1024x1024.Idx) (c : dot_S1024x256_S256x1024_S1024x1024_1_0_0_1_n_n.contr.Idx) :
    (dot_S1024x256_S256x1024_S1024x1024_1_0_0_1_n_n.rhsIdx i c 0).val = (c ⟨0, by decide⟩).val :=
  dot_S1024x256_S256x1024_S1024x1024_1_0_0_1_n_n.rhsIdx_val_of_single rfl i c
/-- The right operand's column is the result's column. -/
theorem gram_rhs_1 (i : S1024x1024.Idx) (c : dot_S1024x256_S256x1024_S1024x1024_1_0_0_1_n_n.contr.Idx) :
    (dot_S1024x256_S256x1024_S1024x1024_1_0_0_1_n_n.rhsIdx i c 1).val = (i 1).val := by
  unfold DotDims.rhsIdx
  rw [dif_neg (show ¬(1 : Fin S256x1024.rank) ∈ dot_S1024x256_S256x1024_S1024x1024_1_0_0_1_n_n.rhsBatch by decide),
    dif_pos (show (1 : Fin S256x1024.rank) ∈ dot_S1024x256_S256x1024_S1024x1024_1_0_0_1_n_n.rhsNonContracting by decide)]
  rfl

/-- The block product into the zero accumulator reads, at `(p, q)`, the inner product of row `p` of the left operand
    and column `q` of the right one. -/
theorem gram_apply (a : FVec Ideal S1024x256 .bf16) (b : FVec Ideal S256x1024 .bf16) (p q : Fin 1024) :
    matmul dot_S1024x256_S256x1024_S1024x1024_1_0_0_1_n_n none a b (constant (F := Ideal) S1024x1024 .f32 0x00000000#32) (ix2 p q)
      = ∑ k : Fin 256, a (ix2 p k) * b (ix2 k q) := by
  simp only [matmul]
  rw [Ideal.matmul_constant_zero_apply,
    ← Equiv.sum_comp (contrEquiv1 dot_S1024x256_S256x1024_S1024x1024_1_0_0_1_n_n 256 rfl rfl).symm]
  refine Finset.sum_congr rfl fun k _ => ?_
  have hk := contrEquiv1_symm_val dot_S1024x256_S256x1024_S1024x1024_1_0_0_1_n_n 256 rfl rfl k
  have el : dot_S1024x256_S256x1024_S1024x1024_1_0_0_1_n_n.lhsIdx (ix2 p q) ((contrEquiv1 dot_S1024x256_S256x1024_S1024x1024_1_0_0_1_n_n 256 rfl rfl).symm k) = ix2 p k :=
    funext fun ax => Fin.ext (by
      match ax with
      | ⟨0, _⟩ => exact gram_lhs_0 _ _
      | ⟨1, _⟩ => exact (gram_lhs_1 _ _).trans hk)
  have er : dot_S1024x256_S256x1024_S1024x1024_1_0_0_1_n_n.rhsIdx (ix2 p q) ((contrEquiv1 dot_S1024x256_S256x1024_S1024x1024_1_0_0_1_n_n 256 rfl rfl).symm k) = ix2 k q :=
    funext fun ax => Fin.ext (by
      match ax with
      | ⟨0, _⟩ => exact (gram_rhs_0 _ _).trans hk
      | ⟨1, _⟩ => exact gram_rhs_1 _ _)
  rw [el, er]

/-- So the product of the first block with the transposed second block, both narrowed to bf16 (the identity on extended
    reals), reads at `(p, q)` the inner product of row `p` of the first and row `q` of the second. -/
theorem gramRows_apply (x0 x1 : FVec Ideal S1024x256 .f32) (p q : Fin 1024) :
    matmul dot_S1024x256_S256x1024_S1024x1024_1_0_0_1_n_n none (truncf .bf16 x0 bitsLt_bf16_f32)
        (transpose S256x1024 [1, 0] (truncf .bf16 x1 bitsLt_bf16_f32) transposes_S1024x256_p1_0_S256x1024)
        (constant (F := Ideal) S1024x1024 .f32 0x00000000#32) (ix2 p q)
      = ∑ k : Fin 256, x0 (ix2 p k) * x1 (ix2 q k) := by
  refine (gram_apply _ _ p q).trans (Finset.sum_congr rfl fun k _ => ?_)
  rw [transp_apply]
  rfl

/-! ## The tile of distances -/

/-- The squared shifted distance of row `p` of the first block and row `q` of the second. -/
def d2B (x0 x1 : Vec Ideal S1024x256 .f32) (b2 : Vec Ideal S1024x1 .f32) (b3 : Vec Ideal S1x1024 .f32)
    (b4 : Vec Ideal S1024x1 .f32) (b5 : Vec Ideal S1x1024 .f32) (p q : Fin 1024) : EReal :=
  ((b2 (ix2 p 0) + b3 (ix2 0 q)) - cTwo * (∑ k : Fin 256, x0 (ix2 p k) * x1 (ix2 q k)))
    + cTwoEps * (b4 (ix2 p 0) - b5 (ix2 0 q)) + cDEps2

/-- The pair's loss: the distance where the labels agree, the hinge of the margin where they do not. -/
def lossB (x0 x1 : Vec Ideal S1024x256 .f32) (b2 : Vec Ideal S1024x1 .f32) (b3 : Vec Ideal S1x1024 .f32)
    (b4 : Vec Ideal S1024x1 .f32) (b5 : Vec Ideal S1x1024 .f32) (b6 : Vec Ideal S1024x1 .i32) (b7 : Vec Ideal S1x1024 .i32)
    (p q : Fin 1024) : EReal :=
  Scalar.select (IntOp.cmpi .eq (b6 (ix2 p 0)) (b7 (ix2 0 q))) (d2B x0 x1 b2 b3 b4 b5 p q)
    (max (cHalf - d2B x0 x1 b2 b3 b4 b5 p q) cZero)

/-- The kernel's tile of distances at `(p, q)`: the narrowing to bf16 is the identity on extended reals, the transposed
    second block is read with its coordinates swapped, and the product into the zero accumulator is the inner
    product of the two rows. -/
theorem pay3_apply (x0 x1 : Vec Ideal S1024x256 .f32) (b2 : Vec Ideal S1024x1 .f32) (b3 : Vec Ideal S1x1024 .f32)
    (b4 : Vec Ideal S1024x1 .f32) (b5 : Vec Ideal S1x1024 .f32) (p q : Fin 1024) :
    k0_pay3 (F := Ideal) x0 x1 b2 b3 b4 b5 (ix2 p q) = d2B x0 x1 b2 b3 b4 b5 p q := by
  unfold k0_pay3 d2B
  simp only [addf_apply, subf_apply, mulf_apply, broadcast_apply, shapeCast_self, bcastCol_apply, bcastRow_apply]
  rw [gramRows_apply]
  rfl

/-! ## The tile's sum added to the running scalar -/

/-- An integer comparison of two vectors at an index compares the elements. -/
theorem cmpi_apply {s : Shape} {w : Nat} (pr : CmpIPredicate) (a b : IVec s w) (i : s.Idx) :
    cmpi pr a b i = IntOp.cmpi pr (a i) (b i) := rfl

/-- For ANY tile `T` of distances and column `c6` of labels: the point's new scalar is the old one plus the sum, over the
    tile's rows and then along each row, of the pair losses — `T` where the labels agree, the hinge of the margin
    where they do not. The two one-axis sums start from the neutral accumulator and leave no zero term behind. -/
theorem pay1_apply (T : FVec Ideal S1024x1024 .f32) (c6 : IVec S1024x1 32) (b7 : Vec Ideal S1x1024 .i32)
    (prev : Vec Ideal S1x1 .f32) (y : S1x1.Idx) :
    k0_pay1 (F := Ideal) T c6 b7 prev y
      = prev y + ∑ p : Fin 1024, ∑ q : Fin 1024,
          Scalar.select (IntOp.cmpi .eq (c6 (ix2 p 0)) (b7 (ix2 0 q))) (T (ix2 p q)) (max (cHalf - T (ix2 p q)) cZero) := by
  unfold k0_pay1
  simp only [addf_apply, shapeCast_self]
  rw [castOne_apply, sublaneSum_apply]
  refine congrArg (_ + ·) (Finset.sum_congr rfl fun p _ => ?_)
  rw [castCol_apply, laneSum_apply]
  refine Finset.sum_congr rfl fun q _ => ?_
  simp only [select_apply, cmpi_apply, maximumf_apply, subf_apply, broadcast_apply, bcastCol_apply, bcastRow_apply]
  rfl

/-- The label column passes through a cast to its own shape. -/
theorem pay4_eq (b6 : Vec Ideal S1024x1 .i32) : k0_pay4 (F := Ideal) b6 = b6 := by
  unfold k0_pay4
  exact shapeCast_self b6 shapeCasts_S1024x1_S1024x1

/-- ONE GRID POINT: the running scalar gains the sum of the tile's pair losses. -/
theorem step_apply (x0 x1 : Vec Ideal S1024x256 .f32) (b2 : Vec Ideal S1024x1 .f32) (b3 : Vec Ideal S1x1024 .f32)
    (b4 : Vec Ideal S1024x1 .f32) (b5 : Vec Ideal S1x1024 .f32) (b6 : Vec Ideal S1024x1 .i32) (b7 : Vec Ideal S1x1024 .i32)
    (prev : Vec Ideal S1x1 .f32) (y : S1x1.Idx) :
    k0_pay1 (F := Ideal) (k0_pay3 (F := Ideal) x0 x1 b2 b3 b4 b5) (k0_pay4 (F := Ideal) b6) b7 prev y
      = prev y + ∑ p : Fin 1024, ∑ q : Fin 1024, lossB x0 x1 b2 b3 b4 b5 b6 b7 p q := by
  rw [pay1_apply, pay4_eq]
  refine congrArg (_ + ·) (Finset.sum_congr rfl fun p _ => Finset.sum_congr rfl fun q _ => ?_)
  rw [pay3_apply]
  rfl

/-- The first point's initial value of the running scalar is the zero word. -/
theorem pay2_apply (y : S1x1.Idx) : k0_pay2 (F := Ideal) y = cZero := rfl

end Cert.Contrastive.Step

end
-- ==== Proof.SumLaw.lean ====
/-
  Regrouping a double sum over 8192 × 8192 into 64 square blocks of side 1024.

  An index below m · n is n · u + p for exactly one pair u < m, p < n, so a sum over such indices is the double sum
  over the pairs (u, p). Used on both coordinates (8192 = 8 · 1024) and on the block number (64 = 8 · 8: block t lies
  in block-row t / 8 and block-column t % 8), and with the two middle sums exchanged, the sum taken block by block is
  the full double sum. Holds in every commutative additive monoid.
-/
import Mathlib.Data.Fintype.BigOperators
import Mathlib.Logic.Equiv.Fin.Basic

open scoped BigOperators

namespace Cert.Contrastive

/-- The number n · u + p is below N = m · n when u < m and p < n. -/
theorem split_lt {m n N : ℕ} (h : m * n = N) (u : Fin m) (p : Fin n) : n * u.val + p.val < N :=
  calc n * u.val + p.val < n * u.val + n := Nat.add_lt_add_left p.isLt _
    _ = n * (u.val + 1) := (Nat.mul_succ _ _).symm
    _ ≤ n * m := Nat.mul_le_mul_left _ u.isLt
    _ = N := (Nat.mul_comm _ _).trans h

/-- A sum over the indices below N = m · n is the double sum over quotient and remainder by n. -/
theorem sum_fin_split {M : Type*} [AddCommMonoid M] {N : ℕ} (m n : ℕ) (h : m * n = N) (g : Fin N → M) :
    ∑ i : Fin N, g i = ∑ u : Fin m, ∑ p : Fin n, g ⟨n * u.val + p.val, split_lt h u p⟩ := by
  subst h
  rw [← Equiv.sum_comp finProdFinEquiv g, Fintype.sum_prod_type]
  refine Finset.sum_congr rfl fun u _ => Finset.sum_congr rfl fun p _ => congrArg g (Fin.ext ?_)
  show p.val + n * u.val = n * u.val + p.val
  exact Nat.add_comm _ _

/-- The full double sum, with each coordinate written as block number and offset inside the block. -/
theorem sum_by_offsets {M : Type*} [AddCommMonoid M] (f : Fin 8192 → Fin 8192 → M) :
    ∑ i : Fin 8192, ∑ j : Fin 8192, f i j
      = ∑ u : Fin 8, ∑ v : Fin 8, ∑ p : Fin 1024, ∑ q : Fin 1024,
          f ⟨1024 * u.val + p.val, split_lt (by decide) u p⟩ ⟨1024 * v.val + q.val, split_lt (by decide) v q⟩ := by
  rw [sum_fin_split 8 1024 (by decide) (fun i => ∑ j : Fin 8192, f i j)]
  refine Finset.sum_congr rfl fun u _ => ?_
  refine Eq.trans ?_ Finset.sum_comm
  refine Finset.sum_congr rfl fun p _ => ?_
  exact sum_fin_split 8 1024 (by decide) (fun j => f ⟨1024 * u.val + p.val, split_lt (by decide) u p⟩ j)

/-- The sum over the 64 blocks of the sums inside each block is the sum over all pairs. -/
theorem sum_blocks {M : Type*} [AddCommMonoid M] (f : Fin 8192 → Fin 8192 → M) :
    ∑ t : Fin 64, ∑ p : Fin 1024, ∑ q : Fin 1024,
        f ⟨1024 * (t.val / 8) + p.val, by omega⟩ ⟨1024 * (t.val % 8) + q.val, by omega⟩
      = ∑ i : Fin 8192, ∑ j : Fin 8192, f i j := by
  refine (sum_fin_split 8 8 (by decide) _).trans ?_
  rw [sum_by_offsets]
  refine Finset.sum_congr rfl fun u _ => Finset.sum_congr rfl fun v _ =>
    Finset.sum_congr rfl fun p _ => Finset.sum_congr rfl fun q _ => ?_
  have hv := v.isLt
  have e1 : 1024 * ((8 * u.val + v.val) / 8) + p.val = 1024 * u.val + p.val := by omega
  have e2 : 1024 * ((8 * u.val + v.val) % 8) + q.val = 1024 * v.val + q.val := by omega
  exact congrArg₂ f (Fin.ext e1) (Fin.ext e2)

end Cert.Contrastive
-- ==== Proof.KernelValue.lean ====
/-
  The kernel's result is the specification's total.

  The running scalar starts, at the first grid point, from the zero word, and every point adds the sum of its tile's
  1024 × 1024 pair losses. A tile's pair loss at (p, q) is the specification's loss of the rows 1024 · (t / 8) + p and
  1024 · (t % 8) + q, because every entry of the point's eight blocks is an entry of x, of the squared norms, of the
  entry sums or of the labels at those rows. So after point n the scalar is the zero word plus the sum of the tiles
  0 … n, and after the last point, the 64 tiles being the 8 × 8 blocks of side 1024 of all pairs, it is the zero word
  plus the double sum of the loss over all 8192 × 8192 pairs. The output array has one cell and is written back once,
  after the last point, so it ends holding that scalar; the last three host operations read the cell as a scalar and
  divide it by the word 8192: the specification's total.
-/
import proofs.«149557_j76081050681843_1_alg».proof.Proof.FrameKernelIdeal.Run
import proofs.«149557_j76081050681843_1_alg».proof.Proof.BlockReads
import proofs.«149557_j76081050681843_1_alg».proof.Proof.StepValue
import proofs.«149557_j76081050681843_1_alg».proof.Proof.SumLaw
import proofs.«149557_j76081050681843_1_alg».proof.Proof.Spec
import Idealize.ShloMosaic.Lib.ValueIdx
import Idealize.ShloMosaic.Lib.Pipeline.Value
import Idealize.ShloMosaic.Lib.StableHlo.Run
import Mathlib.Algebra.BigOperators.Fin

noncomputable section

namespace Cert.Contrastive.KV

open Idealize.ShloMosaic Idealize.ShloMosaic.TcCoe Idealize.ShloMosaic.ValueIdx Idealize.SL.Sem
open Cert.KernelIdeal Cert.KernelIdeal.Gen Cert.KernelIdeal.Hand
open Cert.Contrastive Cert.Contrastive.Blocks Cert.Contrastive.Step

variable (m : (ℓ : Loc nD τ sig) → Buf (Elt Ideal) ℓ) (c : Dev nD)

/-! ## The output array holds the last running scalar -/

/-- The last of the 64 grid points. -/
theorem h63 : 63 < cfg0.N := by rw [show cfg0.N = 64 from N_0]; decide

/-- A 1 × 1 array has one index. -/
theorem cell_eq (x y : S1x1.Idx) : x = y := by
  funext a
  apply Fin.ext
  match a with
  | ⟨0, _⟩ => show (x 0).val = (y 0).val; have h1 : (x 0).val < 1 := (x 0).isLt; have h2 : (y 0).val < 1 := (y 0).isLt; omega
  | ⟨1, _⟩ => show (x 1).val = (y 1).val; have h1 : (x 1).val < 1 := (x 1).isLt; have h2 : (y 1).val < 1 := (y 1).isLt; omega

/-- The output's block index is (0, 0) at every point — decided over the grid. -/
theorem idx8 : ∀ t : Fin cfg0.N, win0_8.index t (0 : Fin 2) = 0 ∧ win0_8.index t (1 : Fin 2) = 0 :=
  (by decide +kernel : ∀ t : Fin grid0.N, _)

/-- An index of the output array is in point t's block iff each coordinate is in the block's range on its axis. -/
theorem mem_out (t : Fin cfg0.N) (i : S1x1.Idx) :
    i ∈ ((cfg0.win 8).blk t).view.set ↔ ∀ a : Fin 2, win0_8.index t a * S1x1.size a ≤ (i a).val ∧ (i a).val < win0_8.index t a * S1x1.size a + S1x1.size a := by
  show i ∈ ((View.whole main_v9).slice (win0_8.rect t)).set ↔ _
  rw [View.set_slice_whole, Rect.mem_set_unit]
  exact Iff.rfl

/-- The output array is written back at the last point only, its one cell lies in that point's block, and what is written
    is what the body left there: the array ends holding the running scalar after the last point. -/
theorem final_out : outFinal m c = outsAt0 m c 63 h63 := by
  have hN : cfg0.N = 64 := N_0
  unfold outFinal
  refine (dats m 0 c).arrAt_eq_of_cover 8 (outsAt0 m c 63 h63) (fun t hf => ?_) (fun i => ?_)
  · have h1 : t.val = 63 := by have := (flush0_8 t).mp hf; have := t.isLt; omega
    obtain rfl : t = ⟨63, h63⟩ := Fin.ext h1
    show (cfg0.win 8).cut (grid0.coords ⟨63, h63⟩) ((dats m 0 c).after 8 ⟨63, h63⟩) = _
    rw [after0_8]
    funext y
    rw [View.read_apply]
    show outsAt0 m c 63 h63 _ = outsAt0 m c 63 h63 _
    exact congrArg (outsAt0 m c 63 h63) (cell_eq _ _)
  · refine ⟨⟨63, h63⟩, (flush0_8 _).mpr rfl, ?_⟩
    rw [mem_out]
    obtain ⟨e0, e1⟩ := idx8 ⟨63, h63⟩
    intro a
    match a with
    | ⟨0, _⟩ => show win0_8.index ⟨63, h63⟩ (0 : Fin 2) * 1 ≤ (i 0).val ∧ (i 0).val < win0_8.index ⟨63, h63⟩ (0 : Fin 2) * 1 + 1; rw [e0]; have : (i 0).val < 1 := (i 0).isLt; omega
    | ⟨1, _⟩ => show win0_8.index ⟨63, h63⟩ (1 : Fin 2) * 1 ≤ (i 1).val ∧ (i 1).val < win0_8.index ⟨63, h63⟩ (1 : Fin 2) * 1 + 1; rw [e1]; have : (i 1).val < 1 := (i 1).isLt; omega

/-- The program's result: the output array read as a scalar, divided by the word 8192. -/
theorem Wend_v11 : (Wend m c (Proc.devRef .tc main_v11) : S_.Idx → EReal)
    = Host.divf (F := Ideal) (shapeCast S_ (outFinal m c) shapeCasts_S1x1_S_) (constant (F := Ideal) S_ .f32 0x46000000#32) := by
  show StableHlo.after hostOps1 (W1 m c) (Proc.devRef .tc main_v11) = _
  after_results
  rw [W1_v9]
  rfl

/-! ## One tile -/

/-- A tile's pair loss at (p, q) is the specification's loss of rows 1024 · (t / 8) + p and 1024 · (t % 8) + q. -/
theorem tile_loss (t : Fin cfg0.N) (p q : Fin 1024) :
    lossB (blk0 m c t) (blk1 m c t) (blk2 m c t) (blk3 m c t) (blk4 m c t) (blk5 m c t) (blk6 m c t) (blk7 m c t) p q
      = loss (xarr m c) (sqv m c) (ssv m c) (tgarr m c) (rowOf t p) (colOf t q) := by
  unfold lossB d2B loss d2
  simp only [blk0_at m c t, blk1_at m c t, blk2_at m c t, blk3_at m c t, blk4_at m c t, blk5_at m c t, blk6_at m c t, blk7_at m c t]

/-- What point t makes of the running scalar: the body's arithmetic on the point's eight blocks. -/
abbrev stepAt (t : Fin cfg0.N) (prev : Vec Ideal S1x1 .f32) : Vec Ideal S1x1 .f32 :=
  k0_pay1 (F := Ideal) (k0_pay3 (F := Ideal) (blk0 m c t) (blk1 m c t) (blk2 m c t) (blk3 m c t) (blk4 m c t) (blk5 m c t)) (k0_pay4 (F := Ideal) (blk6 m c t)) (blk7 m c t) prev

/-- The sum of tile t's pair losses. -/
def tileSum (t : Fin cfg0.N) : EReal :=
  ∑ p : Fin 1024, ∑ q : Fin 1024, loss (xarr m c) (sqv m c) (ssv m c) (tgarr m c) (rowOf t p) (colOf t q)

/-- The same by the point's number, zero past the grid. -/
def tileAt (s : ℕ) : EReal := if h : s < cfg0.N then tileSum m c ⟨s, h⟩ else 0

/-- One point adds its tile's sum to the running scalar. -/
theorem stepAt_apply (t : Fin cfg0.N) (prev : Vec Ideal S1x1 .f32) (y : S1x1.Idx) :
    stepAt m c t prev y = prev y + tileSum m c t := by
  unfold tileSum
  refine (step_apply (blk0 m c t) (blk1 m c t) (blk2 m c t) (blk3 m c t) (blk4 m c t) (blk5 m c t) (blk6 m c t) (blk7 m c t) prev y).trans ?_
  exact congrArg (prev y + ·) (Finset.sum_congr rfl fun p _ => Finset.sum_congr rfl fun q _ => tile_loss m c t p q)

/-! ## The fold over the grid -/

/-- After point n the running scalar is the zero word plus the sums of the tiles 0 … n: by induction on n, from the two
    equations of the running scalar (the first point starts from the zero word, a later point from what the point
    before left). Addition of extended reals is associative; nothing needs to be finite. -/
theorem running
    (h0 : ∀ hn : 0 < cfg0.N, outsAt0 m c 0 hn = stepAt m c ⟨0, hn⟩ (k0_pay2 (F := Ideal)))
    (hs : ∀ (n : ℕ) (hn : n + 1 < cfg0.N), outsAt0 m c (n + 1) hn = stepAt m c ⟨n + 1, hn⟩ (outsAt0 m c n (Nat.lt_of_succ_lt hn))) :
    ∀ (n : ℕ) (hn : n < cfg0.N) (y : S1x1.Idx), outsAt0 m c n hn y = cZero + ∑ s ∈ Finset.range (n + 1), tileAt m c s := by
  intro n
  induction n with
  | zero =>
    intro hn y
    rw [h0 hn, stepAt_apply, pay2_apply, Finset.sum_range_one]
    unfold tileAt
    rw [dif_pos hn]
  | succ n ih =>
    intro hn y
    rw [hs n hn, stepAt_apply, ih (Nat.lt_of_succ_lt hn) y, Finset.sum_range_succ _ (n + 1), add_assoc]
    unfold tileAt
    rw [dif_pos hn]

/-- The 64 tiles are the 8 × 8 blocks of side 1024 of all pairs: their sums add up to the double sum over all pairs. -/
theorem all_tiles : ∑ s ∈ Finset.range (63 + 1), tileAt m c s
    = ∑ i : Fin 8192, ∑ j : Fin 8192, loss (xarr m c) (sqv m c) (ssv m c) (tgarr m c) i j := by
  rw [Finset.sum_range]
  refine Eq.trans ?_ (sum_blocks (fun i j => loss (xarr m c) (sqv m c) (ssv m c) (tgarr m c) i j))
  refine Finset.sum_congr rfl fun s _ => ?_
  have hs : s.val < cfg0.N := by rw [show cfg0.N = 64 from N_0]; exact s.isLt
  unfold tileAt
  rw [dif_pos hs]
  rfl

/-! ## The result -/

/-- THE KERNEL'S RESULT is the specification's total of the rows, their squared norms, their entry sums and the labels. -/
theorem kernel_total
    (h0 : ∀ hn : 0 < cfg0.N, outsAt0 m c 0 hn = stepAt m c ⟨0, hn⟩ (k0_pay2 (F := Ideal)))
    (hs : ∀ (n : ℕ) (hn : n + 1 < cfg0.N), outsAt0 m c (n + 1) hn = stepAt m c ⟨n + 1, hn⟩ (outsAt0 m c n (Nat.lt_of_succ_lt hn)))
    (i : S_.Idx) :
    (Wend m c (Proc.devRef .tc main_v11) : S_.Idx → EReal) i = total (xarr m c) (sqv m c) (ssv m c) (tgarr m c) := by
  have hcell : shapeCast S_ (outFinal m c) shapeCasts_S1x1_S_ i
      = cZero + ∑ a : Fin 8192, ∑ b : Fin 8192, loss (xarr m c) (sqv m c) (ssv m c) (tgarr m c) a b := by
    refine (shapeCast_apply (outFinal m c) shapeCasts_S1x1_S_ i (ix2 (0 : Fin 1) (0 : Fin 1)) ?_).trans ?_
    · show (S1x1.rowMajor (ix2 (0 : Fin 1) (0 : Fin 1))).val = (S_.rowMajor i).val
      have e : (S_.rowMajor i).val = 0 := by have : (S_.rowMajor i).val < 1 := (S_.rowMajor i).isLt; omega
      have e' : (S1x1.rowMajor (ix2 (0 : Fin 1) (0 : Fin 1))).val = 0 := by
        have : (S1x1.rowMajor (ix2 (0 : Fin 1) (0 : Fin 1))).val < 1 := (S1x1.rowMajor (ix2 (0 : Fin 1) (0 : Fin 1))).isLt
        omega
      rw [e, e']
    · rw [final_out, running m c h0 hs 63 h63, all_tiles]
  rw [Wend_v11]
  show FloatOps.hostDivf (shapeCast S_ (outFinal m c) shapeCasts_S1x1_S_ i) (constant (F := Ideal) S_ .f32 0x46000000#32 i) = _
  rw [hcell]
  rfl

end Cert.Contrastive.KV

end
-- ==== Proof.RefValue.lean ====
/-
  The reference's staged value is the specification's total.

  The reference forms, for every pair of rows (a, b): the sum of the two squared norms, minus twice the Gram entry
  ⟨x_a, x_b⟩ (a contraction of x with its own transpose), plus 2ε times the difference of the two entry sums, plus
  256 ε²; then, by the equality of the two labels, either that distance or the hinge max (1/2 - distance) 0; then the
  sum of all pair losses, added to the zero word, divided by 8192. Every broadcast only re-reads a row quantity at the
  row or at the column of the pair, so the value at the pair (a, b) is the specification's loss at (a, b), and the sum over all index
  pairs is the double sum over the two coordinates. The squared norms and the entry sums stay the reference's own
  stages: they are never opened.
-/
import proofs.«149557_j76081050681843_1_alg».proof.Proof.Spec
import proofs.«149557_j76081050681843_1_alg».proof.Proof.Gen.ReferenceIdeal.Read
import Idealize.ShloMosaic.PureOps.Ideal
import Idealize.ShloMosaic.Lib.ValueIdx

noncomputable section

namespace Cert.Contrastive.Ref

open Idealize.ShloMosaic Idealize.ShloMosaic.ValueIdx Cert.ReferenceIdeal Cert.ReferenceIdeal.Read Cert.Contrastive

variable (x0 : (⟨S8192x256, .f32⟩ : BufTy).Contents (Elt Ideal)) (x1 : (⟨S8192, .i32⟩ : BufTy).Contents (Elt Ideal))

/-! ## Row quantities broadcast to the pairs: read at the row, or at the column -/

/-- The squared norms broadcast along the columns: at the pair (a, b), the squared norm of row a. -/
theorem sq_row_at (a b : Fin 8192) :
    val_main_v7 (F := Ideal) x0 (ix2 a b) = val_main_v1 (F := Ideal) x0 (ix1 a) := by
  rw [val_main_v7_apply, val_main_v5_apply]
  exact congrArg (val_main_v1 (F := Ideal) x0) (funext fun d => Fin.ext (by match d with | ⟨0, _⟩ => rfl))

/-- The squared norms broadcast along the rows: at the pair (a, b), the squared norm of row b. -/
theorem sq_col_at (a b : Fin 8192) :
    val_main_v8 (F := Ideal) x0 (ix2 a b) = val_main_v1 (F := Ideal) x0 (ix1 b) := by
  rw [val_main_v8_apply, val_main_v6_apply]
  exact congrArg (val_main_v1 (F := Ideal) x0) (funext fun d => Fin.ext (by match d with | ⟨0, _⟩ => rfl))

/-- The entry sums broadcast along the columns: at (a, b), the entry sum of row a. -/
theorem ss_row_at (a b : Fin 8192) :
    val_main_v15 (F := Ideal) x0 (ix2 a b) = val_main_v2 (F := Ideal) x0 (ix1 a) := by
  rw [val_main_v15_apply, val_main_v13_apply]
  exact congrArg (val_main_v2 (F := Ideal) x0) (funext fun d => Fin.ext (by match d with | ⟨0, _⟩ => rfl))

/-- The entry sums broadcast along the rows: at (a, b), the entry sum of row b. -/
theorem ss_col_at (a b : Fin 8192) :
    val_main_v16 (F := Ideal) x0 (ix2 a b) = val_main_v2 (F := Ideal) x0 (ix1 b) := by
  rw [val_main_v16_apply, val_main_v14_apply]
  exact congrArg (val_main_v2 (F := Ideal) x0) (funext fun d => Fin.ext (by match d with | ⟨0, _⟩ => rfl))

/-- The labels broadcast along the columns: at (a, b), the label of row a. -/
theorem tg_row_at (a b : Fin 8192) :
    val_main_v25 (F := Ideal) x1 (ix2 a b) = x1 (ix1 a) := by
  rw [val_main_v25_apply, val_main_v23_apply]
  exact congrArg x1 (funext fun d => Fin.ext (by match d with | ⟨0, _⟩ => rfl))

/-- The labels broadcast along the rows: at (a, b), the label of row b. -/
theorem tg_col_at (a b : Fin 8192) :
    val_main_v26 (F := Ideal) x1 (ix2 a b) = x1 (ix1 b) := by
  rw [val_main_v26_apply, val_main_v24_apply]
  exact congrArg x1 (funext fun d => Fin.ext (by match d with | ⟨0, _⟩ => rfl))

/-! ## The Gram entry -/

/-- The contraction of x with its transpose at (a, b) is the inner product of rows a and b. -/
theorem gram_at (a b : Fin 8192) :
    val_main_v4 (F := Ideal) x0 (ix2 a b) = ∑ k : Fin 256, x0 (ix2 a k) * x0 (ix2 b k) := by
  rw [val_main_v4_apply]
  refine Finset.sum_congr rfl fun k _ => ?_
  rw [val_main_v3_apply]
  exact congrArg₂ (· * ·)
    (congrArg x0 (funext fun d => Fin.ext (by match d with | ⟨0, _⟩ => rfl | ⟨1, _⟩ => rfl)))
    (congrArg x0 (funext fun d => Fin.ext (by match d with | ⟨0, _⟩ => rfl | ⟨1, _⟩ => rfl)))

/-! ## The distance, the label test, the hinge and the pair loss -/

/-- The reference's distance stage at (a, b) is the specification's distance of rows a and b. -/
theorem dist_at (a b : Fin 8192) :
    val_main_v22 (F := Ideal) x0 (ix2 a b)
      = d2 x0 (val_main_v1 (F := Ideal) x0) (val_main_v2 (F := Ideal) x0) a b := by
  rw [val_main_v22_apply, val_main_v20_apply, val_main_v12_apply, val_main_v9_apply, val_main_v11_apply,
    val_main_v19_apply, val_main_v17_apply, val_main_v21_apply, val_main_v10_apply, val_main_v18_apply,
    val_main_cst_3_apply, val_main_cst_1_apply, val_main_cst_2_apply,
    sq_row_at, sq_col_at, ss_row_at, ss_col_at, gram_at]
  rfl

/-- The reference's label comparison at (a, b) compares the labels of rows a and b. -/
theorem same_at (a b : Fin 8192) :
    val_main_v27 (F := Ideal) x1 (ix2 a b) = IntOp.cmpi .eq (x1 (ix1 a)) (x1 (ix1 b)) := by
  rw [val_main_v27_apply, tg_row_at, tg_col_at]

/-- The reference's hinge stage at (a, b): the larger of one half minus the distance, and zero. -/
theorem hinge_at (a b : Fin 8192) :
    val_main_v31 (F := Ideal) x0 (ix2 a b)
      = max (cHalf - d2 x0 (val_main_v1 (F := Ideal) x0) (val_main_v2 (F := Ideal) x0) a b) cZero := by
  rw [val_main_v31_apply, val_main_v29_apply, val_main_v28_apply, val_main_v30_apply,
    val_main_cst_4_apply, val_main_cst_5_apply, dist_at]
  rfl

/-- The reference's selected value at (a, b) is the specification's loss of the pair. -/
theorem loss_at (a b : Fin 8192) :
    val_main_v32 (F := Ideal) x0 x1 (ix2 a b)
      = loss x0 (val_main_v1 (F := Ideal) x0) (val_main_v2 (F := Ideal) x0) x1 a b := by
  rw [val_main_v32_apply, same_at, dist_at, hinge_at]
  rfl

/-! ## The total -/

/-- The sum of the selected values over all index pairs is the double sum of the pair losses. -/
theorem sum_loss :
    ∑ j : S8192x8192.Idx, val_main_v32 (F := Ideal) x0 x1 j
      = ∑ a : Fin 8192, ∑ b : Fin 8192,
          loss x0 (val_main_v1 (F := Ideal) x0) (val_main_v2 (F := Ideal) x0) x1 a b :=
  (sum_idx2 _).trans (Finset.sum_congr rfl fun a _ => Finset.sum_congr rfl fun b _ => loss_at x0 x1 a b)

/-- The reference's result is the specification's total, over the reference's own squared norms and entry sums. -/
theorem ref_total (x0 : (⟨Cert.ReferenceIdeal.S8192x256, .f32⟩ : BufTy).Contents (Elt Ideal)) (x1 : (⟨Cert.ReferenceIdeal.S8192, .i32⟩ : BufTy).Contents (Elt Ideal)) (i : Cert.ReferenceIdeal.S_.Idx) :
    Cert.ReferenceIdeal.Read.val_main_v34 (F := Ideal) x0 x1 i
      = Cert.Contrastive.total x0 (Cert.ReferenceIdeal.Read.val_main_v1 (F := Ideal) x0) (Cert.ReferenceIdeal.Read.val_main_v2 (F := Ideal) x0) x1 := by
  rw [val_main_v34_apply, val_main_v33_apply, val_main_cst_6_apply, val_main_cst_7_apply, sum_loss,
    Ideal.hostDivf_def, Ideal.ofBits_def, Ideal.ofBits_def]
  rfl

end Cert.Contrastive.Ref

end
-- ==== Proof.lean ====
/-
  A contrastive loss over 8192 rows of 256 entries with integer labels: for every pair of rows the squared shifted distance
  (expanded through the Gram matrix) when the labels agree, the hinge of the margin 1/2 otherwise, summed over all pairs
  and divided by the number of rows.

  The kernel computes the 8192 × 8192 matrix of pair losses in 64 tiles of 1024 × 1024 on an 8 × 8 grid — the rows' block
  against the columns' block on the matrix unit, the squared norms, entry sums and labels broadcast along the tile — and
  adds each tile's sum to one scalar it carries from grid point to grid point, reset at the first; the host divides by 8192.
  The reference computes the same pair losses as one whole matrix and sums it at once. Over the extended reals the two are
  equal because addition there is commutative and associative, so the sum of the 64 tiles' sums is the sum over all pairs
  (no law that fails at an infinity is used, and the finiteness of the input is never opened).

  The word-level program and its idealized text run to the end with their arguments unchanged: the body's two runs (the
  first point's, every later point's) and the pipeline's account of the nine windows, the first argument's array shared
  between the two windows that read it.
-/
import proofs.«149557_j76081050681843_1_alg».proof.Defs
import proofs.«149557_j76081050681843_1_alg».proof.Proof.Gen.Kernel
import proofs.«149557_j76081050681843_1_alg».proof.Proof.Gen.KernelIdeal
import proofs.«149557_j76081050681843_1_alg».proof.Proof.Gen.ReferenceIdeal
import proofs.«149557_j76081050681843_1_alg».proof.Proof.Gen.Pre_finite_inputs
import proofs.«149557_j76081050681843_1_alg».proof.Proof.FrameKernel.Run
import proofs.«149557_j76081050681843_1_alg».proof.Proof.FrameKernelIdeal.Run
import proofs.«149557_j76081050681843_1_alg».proof.Proof.PieceValue
import proofs.«149557_j76081050681843_1_alg».proof.Proof.KernelValue
import proofs.«149557_j76081050681843_1_alg».proof.Proof.RefValue
import Idealize.ShloMosaic.Adequacy
import Idealize.ShloMosaic.Init

noncomputable section

namespace Cert.Proof

open Idealize.ShloMosaic Idealize.ShloMosaic.TcCoe Idealize.SL.Sem

/-- The word-level program runs to the end and leaves its arguments as launched. -/
theorem frame_k : Cert.frame_Kernel := fun m ρ _ => Cert.Kernel.Hand.frame (F := Bits) m ρ

/-- So does its idealized text. -/
theorem frame_ki : Cert.frame_KernelIdeal := fun m ρ _ => Cert.KernelIdeal.Hand.frame (F := Ideal) m ρ

/-- The reference is host operations only: its run, the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

/-- The squared norms and the entry sums are the same host sums of the same array in both programs. -/
theorem sq_eq (m : (ℓ : Loc Cert.KernelIdeal.nD Cert.KernelIdeal.τ Cert.KernelIdeal.sig) → Buf (Elt Ideal) ℓ) (c : Dev Cert.KernelIdeal.nD) :
    Cert.Contrastive.Blocks.sqv m c = Cert.ReferenceIdeal.Read.val_main_v1 (F := Ideal) (Cert.Contrastive.Blocks.xarr m c) := rfl
theorem ss_eq (m : (ℓ : Loc Cert.KernelIdeal.nD Cert.KernelIdeal.τ Cert.KernelIdeal.sig) → Buf (Elt Ideal) ℓ) (c : Dev Cert.KernelIdeal.nD) :
    Cert.Contrastive.Blocks.ssv m c = Cert.ReferenceIdeal.Read.val_main_v2 (F := Ideal) (Cert.Contrastive.Blocks.xarr m c) := rfl

/-- From memories that agree on the arguments both idealized programs end with the specification's total: the kernel's
    scalar after the last grid point divided by the number of rows, and the reference's one sum divided by it. -/
theorem algebraic : Cert.algebraic_KernelIdeal_ReferenceIdeal := by
  intro m ρ m' ρ' _ hagree
  refine ⟨fun c => Cert.KernelIdeal.Hand.Wend m c (Proc.devRef .tc Cert.KernelIdeal.main_v11), ?_, ?_⟩
  · exact (θ_run Cert.KernelIdeal.defs _ _).mono (fun _ h c =>
      ⟨h c Cert.KernelIdeal.main_v11 (by decide),
        (h c Cert.KernelIdeal.main_arg0 (by decide)).trans (Cert.KernelIdeal.Hand.Wend_arg0 m c),
        (h c Cert.KernelIdeal.main_arg1 (by decide)).trans (Cert.KernelIdeal.Hand.Wend_arg1 m c)⟩)
      (Cert.KernelIdeal.Hand.run_main (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v34_eq, (hagree c).1, (hagree c).2]
    funext i
    refine (Cert.Contrastive.Ref.ref_total _ _ i).trans ?_
    refine Eq.trans ?_ (Cert.Contrastive.KV.kernel_total m c (Cert.KernelIdeal.Hand.outsAt0_zero m c) (Cert.KernelIdeal.Hand.outsAt0_succ m c) i).symm
    rw [sq_eq m c, ss_eq m c]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
